-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S100000x384 : Shape := ⟨2, ![100000, 384]⟩
abbrev S2x1280000 : Shape := ⟨2, ![2, 1280000]⟩
abbrev S500x64 : Shape := ⟨2, ![500, 64]⟩
abbrev S64 : Shape := ⟨1, ![64]⟩
abbrev S384x64 : Shape := ⟨2, ![384, 64]⟩
abbrev S128x64 : Shape := ⟨2, ![128, 64]⟩
abbrev S64x7 : Shape := ⟨2, ![64, 7]⟩
abbrev S7 : Shape := ⟨1, ![7]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S100000x384 : S_.BroadcastsInDim S100000x384 (![] : Fin 0 → Fin S100000x384.rank)
  reducesTo_S100000x384_S_d0_1 : S100000x384.ReducesTo [0, 1] S_
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S384x64 : S_.BroadcastsInDim S384x64 (![] : Fin 0 → Fin S384x64.rank)
  reducesTo_S384x64_S_d0_1 : S384x64.ReducesTo [0, 1] S_
  bcast_S_S128x64 : S_.BroadcastsInDim S128x64 (![] : Fin 0 → Fin S128x64.rank)
  reducesTo_S128x64_S_d0_1 : S128x64.ReducesTo [0, 1] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg8 : FVec F S64 .f32) (main_arg9 : FVec F S64x7 .f32) (main_arg10 : FVec F S7 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x7 .f32 := Host.absf main_arg9
  let main_cst_14 : FVec F S_ .f32 := constant S_ .f32 0x7F800000#32
  let main_v40 : FVec F S64x7 .f32 := broadcastInDim S64x7 ![] bcast_S_S64x7 main_cst_14
  let main_v41 : IVec S64x7 1 := cmpf .olt main_v39 main_v40
  let main_c_15 : IVec S_ 1 := constantI S_ 1 1#1
  let main_v42 : IVec S_ 1 := (fun x v => Host.reduce IntOp.andi x v reducesTo_S64x7_S_d0_1 h_S_) main_v41 main_c_15
  let main_v43 : IVec S_ 1 := andi main_v38 main_v42
  let main_v44 : FVec F S7 .f32 := Host.absf main_arg10
  let main_cst_16 : FVec F S_ .f32 := constant S_ .f32 0x7F800000#32
  let main_v45 : FVec F S7 .f32 := broadcastInDim S7 ![] bcast_S_S7 main_cst_16
  let main_v46 : IVec S7 1 := cmpf .olt main_v44 main_v45
  let main_c_17 : IVec S_ 1 := constantI S_ 1 1#1
  let main_v47 : IVec S_ 1 := (fun x v => Host.reduce IntOp.andi x v reducesTo_S7_S_d0 h_S_) main_v46 main_c_17
  let main_v48 : IVec S_ 1 := andi main_v43 main_v47
  main_v48

def fn_part1 {F : FTy → Type} [FloatOps F] (main_arg5 : FVec F S384x64 .f32) (main_arg6 : FVec F S64 .f32) (main_arg7 : FVec F S128x64 .f32) (main_arg8 : FVec F S64 .f32) (main_arg9 : FVec F S64x7 .f32) (main_arg10 : FVec F S7 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S384x64 .f32 := Host.absf main_arg5
  let main_cst_6 : FVec F S_ .f32 := constant S_ .f32 0x7F800000#32
  let main_v20 : FVec F S384x64 .f32 := broadcastInDim S384x64 ![] bcast_S_S384x64 main_cst_6
  let main_v21 : IVec S384x64 1 := cmpf .olt main_v19 main_v20
  let main_c_7 : IVec S_ 1 := constantI S_ 1 1#1
  let main_v22 : IVec S_ 1 := (fun x v => Host.reduce IntOp.andi x v reducesTo_S384x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x500 .f32) (main_arg1 : FVec F S100000x384 .f32) (main_arg2 : IVec S2x1280000 32) (main_arg3 : FVec F S500x64 .f32) (main_arg4 : FVec F S64 .f32) (main_arg5 : FVec F S384x64 .f32) (main_arg6 : FVec F S64 .f32) (main_arg7 : FVec F S128x64 .f32) (main_arg8 : FVec F S64 .f32) (main_arg9 : FVec F S64x7 .f32) (main_arg10 : FVec F S7 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S100000x384 .f32 := Host.absf main_arg1
  let main_cst_0 : FVec F S_ .f32 := constant S_ .f32 0x7F800000#32
  let main_v5 : FVec F S100000x384 .f32 := broadcastInDim S100000x384 ![] bcast_S_S100000x384 main_cst_0
  let main_v6 : IVec S100000x384 1 := cmpf .olt main_v4 main_v5
  let main_c_1 : IVec S_ 1 := constantI S_ 1 1#1
  let main_v7 : IVec S_ 1 := (fun x v => Host.reduce IntOp.andi x v reducesTo_S100000x384_S_d0_1 h_S_) main_v6 main_c_1
  let main_v8 : IVec S_ 1 := andi main_v3 main_v7
  let main_v9 : FVec F S500x64 .f32 := Host.absf main_arg3
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x500 : Shape := ⟨2, ![100000, 500]⟩
abbrev S100000x384 : Shape := ⟨2, ![100000, 384]⟩
abbrev S2x1280000 : Shape := ⟨2, ![2, 1280000]⟩
abbrev S500x64 : Shape := ⟨2, ![500, 64]⟩
abbrev S64 : Shape := ⟨1, ![64]⟩
abbrev S384x64 : Shape := ⟨2, ![384, 64]⟩
abbrev S128x64 : Shape := ⟨2, ![128, 64]⟩
abbrev S64x7 : Shape := ⟨2, ![64, 7]⟩
abbrev S7 : Shape := ⟨1, ![7]⟩
abbrev S1x1280000 : Shape := ⟨2, ![1, 1280000]⟩
abbrev S1280000 : Shape := ⟨1, ![1280000]⟩
abbrev S64x64 : Shape := ⟨2, ![64, 64]⟩
abbrev S1x64 : Shape := ⟨2, ![1, 64]⟩
abbrev S100000x64 : Shape := ⟨2, ![100000, 64]⟩
abbrev S4000x500 : Shape := ⟨2, ![4000, 500]⟩
abbrev S4000x384 : Shape := ⟨2, ![4000, 384]⟩
abbrev S4000x64 : Shape := ⟨2, ![4000, 64]⟩
abbrev S_ : Shape := ⟨0, ![]⟩
abbrev S100000 : Shape := ⟨1, ![100000]⟩
abbrev S1280000x1 : Shape := ⟨2, ![1280000, 1]⟩
abbrev S1280000x64 : Shape := ⟨2, ![1280000, 64]⟩
abbrev S100000x1 : Shape := ⟨2, ![100000, 1]⟩
abbrev S100000x7 : Shape := ⟨2, ![100000, 7]⟩
abbrev S4000x7 : Shape := ⟨2, ![4000, 7]⟩
abbrev S1280000x7 : Shape := ⟨2, ![1280000, 7]⟩
abbrev S1x7 : Shape := ⟨2, ![1, 7]⟩

abbrev nBuf : Space → Nat
  | .hbm => 110
  | .vmem => 14
  | .smem => 0
  | _ => 0

abbrev bufTy : (tb : Table) → Fin (tcTables nBuf tb) → BufTy
  | .hbm, ⟨0, _⟩ => ⟨S100000x500, .f32⟩
  | .hbm, ⟨1, _⟩ => ⟨S100000x384, .f32⟩
  | .hbm, ⟨2, _⟩ => ⟨S2x1280000, .i32⟩
  | .hbm, ⟨3, _⟩ => ⟨S500x64, .f32⟩
  | .hbm, ⟨4, _⟩ => ⟨S64, .f32⟩
  | .hbm, ⟨5, _⟩ => ⟨S384x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S64x7, .f32⟩
  | .hbm, ⟨10, _⟩ => ⟨S7, .f32⟩
  | .hbm, ⟨11, _⟩ => ⟨S1x1280000, .i32⟩
  | .hbm, ⟨12, _⟩ => ⟨S1280000, .i32⟩
  | .hbm, ⟨13, _⟩ => ⟨S1x1280000, .i32⟩
  | .hbm, ⟨14, _⟩ => ⟨S1280000, .i32⟩
  | .hbm, ⟨15, _⟩ => ⟨S64x64, .f32⟩
  | .hbm, ⟨16, _⟩ => ⟨S64x64, .f32⟩
  | .hbm, ⟨17, _⟩ => ⟨S500x64, .f32⟩
  | .hbm, ⟨18, _⟩ => ⟨S384x64, .f32⟩
  | .hbm, ⟨19, _⟩ => ⟨S1x64, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S64, .f32⟩
  | .hbm, ⟨25, _⟩ => ⟨S64, .f32⟩
  | .hbm, ⟨26, _⟩ => ⟨S1x64, .f32⟩
  | .hbm, ⟨27, _⟩ => ⟨S100000x64, .f32⟩
  | .hbm, ⟨28, _⟩ => ⟨S_, .f32⟩
  | .hbm, ⟨29, _⟩ => ⟨S1280000, .f32⟩
  | .hbm, ⟨30, _⟩ => ⟨S_, .f32⟩
  | .hbm, ⟨31, _⟩ => ⟨S100000, .f32⟩
  | .hbm, ⟨32, _⟩ => ⟨S1280000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1280000, .i32⟩
  | .hbm, ⟨42, _⟩ => ⟨S1280000, .i1⟩
  | .hbm, ⟨43, _⟩ => ⟨S_, .i32⟩
  | .hbm, ⟨44, _⟩ => ⟨S1280000, .i32⟩
  | .hbm, ⟨45, _⟩ => ⟨S1280000, .i32⟩
  | .hbm, ⟨46, _⟩ => ⟨S1280000, .i32⟩
  | .hbm, ⟨47, _⟩ => ⟨S1280000x1, .i32⟩
  | .hbm, ⟨48, _⟩ => ⟨S1280000, .f32⟩
  | .hbm, ⟨49, _⟩ => ⟨S_, .i32⟩
  | .hbm, ⟨50, _⟩ => ⟨S1280000, .i32⟩
  | .hbm, ⟨51, _⟩ => ⟨S1280000, .i1⟩
  | .hbm, ⟨52, _⟩ => ⟨S_, .i32⟩
  | .hbm, ⟨53, _⟩ => ⟨S1280000, .i32⟩
  | .hbm, ⟨54, _⟩ => ⟨S1280000, .i32⟩
  | .hbm, ⟨55, _⟩ => ⟨S1280000, .i32⟩
  | .hbm, ⟨56, _⟩ => ⟨S1280000x1, .i32⟩
  | .hbm, ⟨57, _⟩ => ⟨S1280000, .f32⟩
  | .hbm, ⟨58, _⟩ => ⟨S1280000, .f32⟩
  | .hbm, ⟨59, _⟩ => ⟨S100000, .f32⟩
  | .hbm, ⟨60, _⟩ => ⟨S_, .i32⟩
  | .hbm, ⟨61, _⟩ => ⟨S1280000, .i32⟩
  | .hbm, ⟨62, _⟩ => ⟨S1280000, .i1⟩
  | .hbm, ⟨63, _⟩ => ⟨S_, .i32⟩
  | .hbm, ⟨64, _⟩ => ⟨S1280000, .i32⟩
  | .hbm, ⟨65, _⟩ => ⟨S1280000, .i32⟩
  | .hbm, ⟨66, _⟩ => ⟨S1280000, .i32⟩
  | .hbm, ⟨67, _⟩ => ⟨S1280000x1, .i32⟩
  | .hbm, ⟨68, _⟩ => ⟨S1280000x64, .f32⟩
  | .hbm, ⟨69, _⟩ => ⟨S1280000x1, .f32⟩
  | .hbm, ⟨70, _⟩ => ⟨S1280000x64, .f32⟩
  | .hbm, ⟨71, _⟩ => ⟨S1280000x64, .f32⟩
  | .hbm, ⟨72, _⟩ => ⟨S_, .f32⟩
  | .hbm, ⟨73, _⟩ => ⟨S100000x64, .f32⟩
  | .hbm, ⟨74, _⟩ => ⟨S1280000x1, .i32⟩
  | .hbm, ⟨75, _⟩ => ⟨S100000x64, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x7, .f32⟩
  | .hbm, ⟨87, _⟩ => ⟨S_, .i32⟩
  | .hbm, ⟨88, _⟩ => ⟨S1280000, .i32⟩
  | .hbm, ⟨89, _⟩ => ⟨S1280000, .i1⟩
  | .hbm, ⟨90, _⟩ => ⟨S_, .i32⟩
  | .hbm, ⟨91, _⟩ => ⟨S1280000, .i32⟩
  | .hbm, ⟨92, _⟩ => ⟨S1280000, .i32⟩
  | .hbm, ⟨93, _⟩ => ⟨S1280000, .i32⟩
  | .hbm, ⟨94, _⟩ => ⟨S1280000x1, .i32⟩
  | .hbm, ⟨95, _⟩ => ⟨S1280000x7, .f32⟩
  | .hbm, ⟨96, _⟩ => ⟨S1280000x1, .f32⟩
  | .hbm, ⟨97, _⟩ => ⟨S1280000x7, .f32⟩
  | .hbm, ⟨98, _⟩ => ⟨S1280000x7, .f32⟩
  | .hbm, ⟨99, _⟩ => ⟨S_, .f32⟩
  | .hbm, ⟨100, _⟩ => ⟨S100000x7, .f32⟩
  | .hbm, ⟨101, _⟩ => ⟨S1280000x1, .i32⟩
  | .hbm, ⟨102, _⟩ => ⟨S100000x7, .f32⟩
  | .hbm, ⟨103, _⟩ => ⟨S100000x1, .f32⟩
  | .hbm, ⟨104, _⟩ => ⟨S100000x7, .f32⟩
  | .hbm, ⟨105, _⟩ => ⟨S100000x7, .f32⟩
  | .hbm, ⟨106, _⟩ => ⟨S100000x7, .f32⟩
  | .hbm, ⟨107, _⟩ => ⟨S1x7, .f32⟩
  | .hbm, ⟨108, _⟩ => ⟨S100000x7, .f32⟩
  | .hbm, ⟨109, _⟩ => ⟨S100000x7, .f32⟩
  | .local _ .vmem, ⟨0, _⟩ => ⟨S4000x500, .f32⟩
  | .local _ .vmem, ⟨1, _⟩ => ⟨S4000x500, .f32⟩
  | .local _ .vmem, ⟨2, _⟩ => ⟨S4000x384, .f32⟩
  | .local _ .vmem, ⟨3, _⟩ => ⟨S4000x384, .f32⟩
  | .local _ .vmem, ⟨4, _⟩ => ⟨S500x64, .f32⟩
  | .local _ .vmem, ⟨5, _⟩ => ⟨S384x64, .f32⟩
  | .local _ .vmem, ⟨6, _⟩ => ⟨S1x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S64x7, .f32⟩
  | .local _ .vmem, ⟨12, _⟩ => ⟨S4000x7, .f32⟩
  | .local _ .vmem, ⟨13, _⟩ => ⟨S4000x7, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_call0_cst : Ref sig .tc := ⟨.hbm, 83, rfl⟩
abbrev main_call0_v0 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_v63 : Ref sig .tc := ⟨.hbm, 88, rfl⟩
abbrev main_v64 : Ref sig .tc := ⟨.hbm, 89, rfl⟩
abbrev main_c_10 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_11 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S500x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  slices_S128x64_S64x64_0_0 : S128x64.Slices ![0, 0] S64x64
  slices_S128x64_S64x64_64_0 : S128x64.Slices ![64, 0] S64x64
  bcast_S64_S1x64_1 : S64.BroadcastsInDim S1x64 (![1] : Fin 1 → Fin S1x64.rank)
  shapeCasts_S1x64_S64 : S1x64.ShapeCasts S64
  shapeCasts_S64_S1x64 : S64.ShapeCasts S1x64
  inb_S4000x500_S4000x500_0_0 : ∀ a, (![0, 0] : Fin 2 → Nat) a + S4000x500.size a ≤ S4000x500.size a
  h_S4000x500 : 0 < S4000x500.numel
  bitsLt_bf16_f32 : FTy.bits .bf16 < FTy.bits .f32
  inb_S4000x384_S4000x384_0_0 : ∀ a, (![0, 0] : Fin 2 → Nat) a + S4000x384.size a ≤ S4000x384.size a
  h_S4000x384 : 0 < S4000x384.numel
  inb_S500x64_S500x64_0_0 : ∀ a, (![0, 0] : Fin 2 → Nat) a + S500x64.size a ≤ S500x64.size a
  h_S500x64 : 0 < S500x64.numel
  shapeCasts_S500x64_S500x64 : S500x64.ShapeCasts S500x64
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  shapeCasts_S4000x64_S4000x64 : S4000x64.ShapeCasts S4000x64
  inb_S64x7_S64x7_0_0 : ∀ a, (![0, 0] : Fin 2 → Nat) a + S64x7.size a ≤ S64x7.size a
  h_S64x7 : 0 < S64x7.numel
  inb_S4000x7_S4000x7_0_0 : ∀ a, (![0, 0] : Fin 2 → Nat) a + S4000x7.size a ≤ S4000x7.size a
  h_S4000x7 : 0 < S4000x7.numel
  bcast_S1280000x1_S1280000x7_0_1 : S1280000x1.BroadcastsInDim S1280000x7 (![0, 1] : Fin 2 → Fin S1280000x7.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S500x64_S64x64_S500x64_1_0_0_1_n_n_wf : DotDims.WF S500x64 S64x64 S500x64 [1] [0] [0] [1] [] []
  dot_S384x64_S64x64_S384x64_1_0_0_1_n_n_wf : DotDims.WF S384x64 S64x64 S384x64 [1] [0] [0] [1] [] []
  dot_S1x64_S64x64_S1x64_1_0_0_1_n_n_wf : DotDims.WF S1x64 S64x64 S1x64 [1] [0] [0] [1] [] []
  dot_S4000x500_S500x64_S4000x64_1_0_0_1_n_n_wf : DotDims.WF S4000x500 S500x64 S4000x64 [1] [0] [0] [1] [] []
  dot_S4000x384_S384x64_S4000x64_1_0_0_1_n_n_wf : DotDims.WF S4000x384 S384x64 S4000x64 [1] [0] [0] [1] [] []
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S4000x64_S64x7_S4000x7_1_0_0_1_n_n_wf : DotDims.WF S4000x64 S64x7 S4000x7 [1] [0] [0] [1] [] []
  gather_S100000x7_S1280000x1_S1280000x7_1_0_n_n_0_1_17_wf : GatherDims.WF S100000x7 S1280000x1 S1280000x7 [1] [0] [] [0] [] 1 ![1, 7]
  scatter_S100000x7_S1280000x1_S1280000x7_1_0_0_1_wf : ScatterDims.WF S100000x7 S1280000x1 S1280000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x500.size a ≤ S100000x500.size a
  hwx0_0 : ∀ i : grid0.Coords, EltTy.bits .f32 = 32 ∨ (Rect.block (s := S100000x500) S4000x500.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x384.size a ≤ S100000x384.size a
  hwx0_1 : ∀ i : grid0.Coords, EltTy.bits .f32 = 32 ∨ (Rect.block (s := S100000x384) S4000x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S500x64.size a ≤ S500x64.size a
  hwx0_2 : ∀ i : grid0.Coords, EltTy.bits .f32 = 32 ∨ (Rect.block (s := S500x64) S500x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x64.size a ≤ S384x64.size a
  hwx0_3 : ∀ i : grid0.Coords, EltTy.bits .f32 = 32 ∨ (Rect.block (s := S384x64) S384x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x7.size a ≤ S64x7.size a
  hwx1_1 : ∀ i : grid1.Coords, EltTy.bits .f32 = 32 ∨ (Rect.block (s := S64x7) S64x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x7.size a ≤ S100000x7.size a
  hwx1_2 : ∀ i : grid1.Coords, EltTy.bits .f32 = 32 ∨ (Rect.block (s := S100000x7) S4000x7.size (cc1_transform_2 i) (hinb1_2 i)).WholeWords (EltTy.packing .f32)

variable [Facts₀]

def dot_S500x64_S64x64_S500x64_1_0_0_1_n_n : DotDims S500x64 S64x64 S500x64 where
  lhsContracting := [1]
  rhsContracting := [0]
  lhsNonContracting := [0]
  rhsNonContracting := [1]
  lhsBatch := []
  rhsBatch := []
  wf := dot_S500x64_S64x64_S500x64_1_0_0_1_n_n_wf
def dot_S384x64_S64x64_S384x64_1_0_0_1_n_n : DotDims S384x64 S64x64 S384x64 where
  lhsContracting := [1]
  rhsContracting := [0]
  lhsNonContracting := [0]
  rhsNonContracting := [1]
  lhsBatch := []
  rhsBatch := []
  wf := dot_S384x64_S64x64_S384x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S4000x500_S500x64_S4000x64_1_0_0_1_n_n : DotDims S4000x500 S500x64 S4000x64 where
  lhsContracting := [1]
  rhsContracting := [0]
  lhsNonContracting := [0]
  rhsNonContracting := [1]
  lhsBatch := []
  rhsBatch := []
  wf := dot_S4000x500_S500x64_S4000x64_1_0_0_1_n_n_wf
def dot_S4000x384_S384x64_S4000x64_1_0_0_1_n_n : DotDims S4000x384 S384x64 S4000x64 where
  lhsContracting := [1]
  rhsContracting := [0]
  lhsNonContracting := [0]
  rhsNonContracting := [1]
  lhsBatch := []
  rhsBatch := []
  wf := dot_S4000x384_S384x64_S4000x64_1_0_0_1_n_n_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S4000x64_S64x7_S4000x7_1_0_0_1_n_n : DotDims S4000x64 S64x7 S4000x7 where
  lhsContracting := [1]
  rhsContracting := [0]
  lhsNonContracting := [0]
  rhsNonContracting := [1]
  lhsBatch := []
  rhsBatch := []
  wf := dot_S4000x64_S64x7_S4000x7_1_0_0_1_n_n_wf
def gather_S100000x7_S1280000x1_S1280000x7_1_0_n_n_0_1_17 : GatherDims S100000x7 S1280000x1 S1280000x7 where
  offsetDims := [1]
  collapsedSliceDims := [0]
  operandBatchingDims := []
  startIndicesBatchingDims := []
  startIndexMap := [0]
  indexVectorDim := 1
  sliceSizes := ![1, 7]
  wf := gather_S100000x7_S1280000x1_S1280000x7_1_0_n_n_0_1_17_wf
def scatter_S100000x7_S1280000x1_S1280000x7_1_0_0_1 : ScatterDims S100000x7 S1280000x1 S1280000x7 where
  updateWindowDims := [1]
  insertedWindowDims := [0]
  scatterDimsToOperandDims := [0]
  indexVectorDim := 1
  wf := scatter_S100000x7_S1280000x1_S1280000x7_1_0_0_1_wf

abbrev win0_0 : Pipeline.Window sig grid0 :=
  Pipeline.Window.ofSpec (Memref.whole main_arg0) S4000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S500x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v61) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S64x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S4000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x500 : Shape := ⟨2, ![100000, 500]⟩
abbrev S100000x384 : Shape := ⟨2, ![100000, 384]⟩
abbrev S2x1280000 : Shape := ⟨2, ![2, 1280000]⟩
abbrev S500x64 : Shape := ⟨2, ![500, 64]⟩
abbrev S64 : Shape := ⟨1, ![64]⟩
abbrev S384x64 : Shape := ⟨2, ![384, 64]⟩
abbrev S128x64 : Shape := ⟨2, ![128, 64]⟩
abbrev S64x7 : Shape := ⟨2, ![64, 7]⟩
abbrev S7 : Shape := ⟨1, ![7]⟩
abbrev S1x1280000 : Shape := ⟨2, ![1, 1280000]⟩
abbrev S1280000 : Shape := ⟨1, ![1280000]⟩
abbrev S100000x64 : Shape := ⟨2, ![100000, 64]⟩
abbrev S1x64 : Shape := ⟨2, ![1, 64]⟩
abbrev S100000x128 : Shape := ⟨2, ![100000, 128]⟩
abbrev S_ : Shape := ⟨0, ![]⟩
abbrev S100000 : Shape := ⟨1, ![100000]⟩
abbrev S1280000x1 : Shape := ⟨2, ![1280000, 1]⟩
abbrev S1280000x64 : Shape := ⟨2, ![1280000, 64]⟩
abbrev S100000x1 : Shape := ⟨2, ![100000, 1]⟩
abbrev S100000x7 : Shape := ⟨2, ![100000, 7]⟩
abbrev S1280000x7 : Shape := ⟨2, ![1280000, 7]⟩
abbrev S1x7 : Shape := ⟨2, ![1, 7]⟩

abbrev nBuf : Space → Nat
  | .hbm => 139
  | .vmem => 0
  | .smem => 0
  | _ => 0

abbrev hbmTy0_0 (i : Nat) : BufTy := match i % 128 with
  | 0 => ⟨S100000x500, .f32⟩
  | 1 => ⟨S100000x384, .f32⟩
  | 2 => ⟨S2x1280000, .i32⟩
  | 3 => ⟨S500x64, .f32⟩
  | 4 => ⟨S64, .f32⟩
  | 5 => ⟨S384x64, .f32⟩
  | 6 => ⟨S64, .f32⟩
  | 7 => ⟨S128x64, .f32⟩
  | 8 => ⟨S64, .f32⟩
  | 9 => ⟨S64x7, .f32⟩
  | 10 => ⟨S7, .f32⟩
  | 11 => ⟨S1x1280000, .i32⟩
  | 12 => ⟨S1280000, .i32⟩
  | 13 => ⟨S1x1280000, .i32⟩
  | 14 => ⟨S1280000, .i32⟩
  | 15 => ⟨S100000x64, .f32⟩
  | 16 => ⟨S1x64, .f32⟩
  | 17 => ⟨S100000x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S100000x128, .f32⟩
  | 24 => ⟨S100000x64, .f32⟩
  | 25 => ⟨S_, .f32⟩
  | 26 => ⟨S1280000, .f32⟩
  | 27 => ⟨S_, .f32⟩
  | 28 => ⟨S100000, .f32⟩
  | 29 => ⟨S1280000x1, .i32⟩
  | 30 => ⟨S100000, .f32⟩
  | 31 => ⟨S_, .f32⟩
  | 32 => ⟨S100000, .f32⟩
  | 33 => ⟨S100000, .f32⟩
  | 34 => ⟨S_, .f32⟩
  | 35 => ⟨S100000, .f32⟩
  | 36 => ⟨S100000, .f32⟩
  | 37 => ⟨S_, .i32⟩
  | 38 => ⟨S1280000, .i32⟩
  | 39 => ⟨S1280000, .i1⟩
  | 40 => ⟨S_, .i32⟩
  | 41 => ⟨S1280000, .i32⟩
  | 42 => ⟨S1280000, .i32⟩
  | 43 => ⟨S1280000, .i32⟩
  | 44 => ⟨S1280000x1, .i32⟩
  | 45 => ⟨S1280000, .f32⟩
  | 46 => ⟨S_, .i32⟩
  | 47 => ⟨S1280000, .i32⟩
  | 48 => ⟨S1280000, .i1⟩
  | 49 => ⟨S_, .i32⟩
  | 50 => ⟨S1280000, .i32⟩
  | 51 => ⟨S1280000, .i32⟩
  | 52 => ⟨S1280000, .i32⟩
  | 53 => ⟨S1280000x1, .i32⟩
  | 54 => ⟨S1280000, .f32⟩
  | 55 => ⟨S1280000, .f32⟩
  | 56 => ⟨S_, .i32⟩
  | 57 => ⟨S1280000, .i32⟩
  | 58 => ⟨S1280000, .i1⟩
  | 59 => ⟨S_, .i32⟩
  | 60 => ⟨S1280000, .i32⟩
  | 61 => ⟨S1280000, .i32⟩
  | 62 => ⟨S1280000, .i32⟩
  | 63 => ⟨S1280000x1, .i32⟩
  | 64 => ⟨S1280000x64, .f32⟩
  | 65 => ⟨S1280000x1, .f32⟩
  | 66 => ⟨S1280000x64, .f32⟩
  | 67 => ⟨S1280000x64, .f32⟩
  | 68 => ⟨S_, .f32⟩
  | 69 => ⟨S100000x64, .f32⟩
  | 70 => ⟨S1280000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x7, .f32⟩
  | 84 => ⟨S_, .f32⟩
  | 85 => ⟨S1280000, .f32⟩
  | 86 => ⟨S_, .f32⟩
  | 87 => ⟨S100000, .f32⟩
  | 88 => ⟨S1280000x1, .i32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S100000, .f32⟩
  | 96 => ⟨S_, .i32⟩
  | 97 => ⟨S1280000, .i32⟩
  | 98 => ⟨S1280000, .i1⟩
  | 99 => ⟨S_, .i32⟩
  | 100 => ⟨S1280000, .i32⟩
  | 101 => ⟨S1280000, .i32⟩
  | 102 => ⟨S1280000, .i32⟩
  | 103 => ⟨S1280000x1, .i32⟩
  | 104 => ⟨S1280000, .f32⟩
  | 105 => ⟨S_, .i32⟩
  | 106 => ⟨S1280000, .i32⟩
  | 107 => ⟨S1280000, .i1⟩
  | 108 => ⟨S_, .i32⟩
  | 109 => ⟨S1280000, .i32⟩
  | 110 => ⟨S1280000, .i32⟩
  | 111 => ⟨S1280000, .i32⟩
  | 112 => ⟨S1280000x1, .i32⟩
  | 113 => ⟨S1280000, .f32⟩
  | 114 => ⟨S1280000, .f32⟩
  | 115 => ⟨S_, .i32⟩
  | 116 => ⟨S1280000, .i32⟩
  | 117 => ⟨S1280000, .i1⟩
  | 118 => ⟨S_, .i32⟩
  | 119 => ⟨S1280000, .i32⟩
  | 120 => ⟨S1280000, .i32⟩
  | 121 => ⟨S1280000, .i32⟩
  | 122 => ⟨S1280000x1, .i32⟩
  | 123 => ⟨S1280000x7, .f32⟩
  | 124 => ⟨S1280000x1, .f32⟩
  | 125 => ⟨S1280000x7, .f32⟩
  | 126 => ⟨S1280000x7, .f32⟩
  | 127 => ⟨S_, .f32⟩
  | _ => ⟨S100000x500, .f32⟩

abbrev hbmTy0_1 (i : Nat) : BufTy := match i % 128 with
  | 0 => ⟨S100000x7, .f32⟩
  | 1 => ⟨S1280000x1, .i32⟩
  | 2 => ⟨S100000x7, .f32⟩
  | 3 => ⟨S100000, .f32⟩
  | 4 => ⟨S100000x1, .f32⟩
  | 5 => ⟨S100000x7, .f32⟩
  | 6 => ⟨S100000x7, .f32⟩
  | 7 => ⟨S100000x7, .f32⟩
  | 8 => ⟨S1x7, .f32⟩
  | 9 => ⟨S100000x7, .f32⟩
  | 10 => ⟨S100000x7, .f32⟩
  | _ => ⟨S100000x500, .f32⟩

abbrev hbmTy (i : Nat) : BufTy := match i / 128 with
  | 0 => hbmTy0_0 i
  | 1 => hbmTy0_1 i
  | _ => ⟨S100000x500, .f32⟩

abbrev bufTy : (tb : Table) → Fin (tcTables nBuf tb) → BufTy
  | .hbm, ⟨i, _⟩ => hbmTy i
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_c : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_c_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_c_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S1280000x1_S1280000x64_0_1 : S1280000x1.BroadcastsInDim S1280000x64 (![0, 1] : Fin 2 → Fin S1280000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1280000x1_S1280000x7_0_1 : S1280000x1.BroadcastsInDim S1280000x7 (![0, 1] : Fin 2 → Fin S1280000x7.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  dot_S100000x500_S500x64_S100000x64_1_0_0_1_n_n_wf : DotDims.WF S100000x500 S500x64 S100000x64 [1] [0] [0] [1] [] []
  dot_S100000x384_S384x64_S100000x64_1_0_0_1_n_n_wf : DotDims.WF S100000x384 S384x64 S100000x64 [1] [0] [0] [1] [] []
  dot_S100000x128_S128x64_S100000x64_1_0_0_1_n_n_wf : DotDims.WF S100000x128 S128x64 S100000x64 [1] [0] [0] [1] [] []
  scatter_S100000_S1280000x1_S1280000_n_0_0_1_wf : ScatterDims.WF S100000 S1280000x1 S1280000 [] [0] [0] 1
  gather_S100000_S1280000x1_S1280000_n_0_n_n_0_1_1_wf : GatherDims.WF S100000 S1280000x1 S1280000 [] [0] [] [0] [] 1 ![1]
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x7_S100000x7_1_0_0_1_n_n_wf : DotDims.WF S100000x64 S64x7 S100000x7 [1] [0] [0] [1] [] []
  gather_S100000x7_S1280000x1_S1280000x7_1_0_n_n_0_1_17_wf : GatherDims.WF S100000x7 S1280000x1 S1280000x7 [1] [0] [] [0] [] 1 ![1, 7]
  scatter_S100000x7_S1280000x1_S1280000x7_1_0_0_1_wf : ScatterDims.WF S100000x7 S1280000x1 S1280000x7 [1] [0] [0] 1

variable [Facts₀]

def dot_S100000x500_S500x64_S100000x64_1_0_0_1_n_n : DotDims S100000x500 S500x64 S100000x64 where
  lhsContracting := [1]
  rhsContracting := [0]
  lhsNonContracting := [0]
  rhsNonContracting := [1]
  lhsBatch := []
  rhsBatch := []
  wf := dot_S100000x500_S500x64_S100000x64_1_0_0_1_n_n_wf
def dot_S100000x384_S384x64_S100000x64_1_0_0_1_n_n : DotDims S100000x384 S384x64 S100000x64 where
  lhsContracting := [1]
  rhsContracting := [0]
  lhsNonContracting := [0]
  rhsNonContracting := [1]
  lhsBatch := []
  rhsBatch := []
  wf := dot_S100000x384_S384x64_S100000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000_S1280000x1_S1280000_n_0_n_n_0_1_1 : GatherDims S100000 S1280000x1 S1280000 where
  offsetDims := []
  collapsedSliceDims := [0]
  operandBatchingDims := []
  startIndicesBatchingDims := []
  startIndexMap := [0]
  indexVectorDim := 1
  sliceSizes := ![1]
  wf := gather_S100000_S1280000x1_S1280000_n_0_n_n_0_1_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf
def gather_S100000x7_S1280000x1_S1280000x7_1_0_n_n_0_1_17 : GatherDims S100000x7 S1280000x1 S1280000x7 where
  offsetDims := [1]
  collapsedSliceDims := [0]
  operandBatchingDims := []
  startIndicesBatchingDims := []
  startIndexMap := [0]
  indexVectorDim := 1
  sliceSizes := ![1, 7]
  wf := gather_S100000x7_S1280000x1_S1280000x7_1_0_n_n_0_1_17_wf
def scatter_S100000x7_S1280000x1_S1280000x7_1_0_0_1 : ScatterDims S100000x7 S1280000x1 S1280000x7 where
  updateWindowDims := [1]
  insertedWindowDims := [0]
  scatterDimsToOperandDims := [0]
  indexVectorDim := 1
  wf := scatter_S100000x7_S1280000x1_S1280000x7_1_0_0_1_wf

class Facts : Prop extends Facts₀ where

variable [Facts]
-- ==== Proof.Chains.lean ====
/-
  The graph-convolution steps both programs share, each as ONE function of the values going in.

  With `e` the edge list (row 0 the sources, row 1 the destinations), `dinv` is (in-degree + 1)^(-1/2) per node, `coef` the
  product of the two endpoints' `dinv` per edge, and a convolution of node features `h` is: gather `h` at the sources
  (negative indices wrapped), scale by `coef`, scatter-add at the destinations, add the self-loop term `h · dinv²`, add
  the bias. The first convolution is followed by a rectifier, the second is the result. Nothing here is opened by the
  proof: the two programs apply these same functions, and only the values going in are compared.
-/
import proofs.«152900_j34102040330885_1_alg».proof.ReferenceIdeal
import proofs.«152900_j34102040330885_1_alg».proof.Proof.Gen.ReferenceIdeal
import Idealize.ShloMosaic.PureOps.Ideal

noncomputable section

namespace Cert.Chains

open Cert.ReferenceIdeal Cert.ReferenceIdeal.Gen Idealize.ShloMosaic

variable (e : IVec S2x1280000 32)

/-- The edges' source nodes. -/
def srcRow : IVec S1280000 32 :=
  shapeCast _ (extractStridedSlice S1x1280000 ![0, 0] e slices_S2x1280000_S1x1280000_0_0) shapeCasts_S1x1280000_S1280000
/-- The edges' destination nodes. -/
def dstRow : IVec S1280000 32 :=
  shapeCast _ (extractStridedSlice S1x1280000 ![1, 0] e slices_S2x1280000_S1x1280000_1_0) shapeCasts_S1x1280000_S1280000
/-- A node list as gather indices: a negative index counts from the end. -/
def wrap (v : IVec S1280000 32) : IVec S1280000x1 32 :=
  broadcastInDim S1280000x1 ![0] bcast_S1280000_S1280000x1_0 (select (cmpi .slt v (broadcastInDim S1280000 ![] bcast_S_S1280000 (constantI S_ 32 0#32))) (addi v (broadcastInDim S1280000 ![] bcast_S_S1280000 (constantI S_ 32 100000#32))) v)
/-- (in-degree + 1)^(-1/2), per node. -/
def dinv : FVec Ideal S100000 .f32 :=
  Host.powf (addf (Host.scatterAdd scatter_S100000_S1280000x1_S1280000_n_0_0_1 (broadcastInDim S100000 ![] bcast_S_S100000 (constant S_ .f32 0x00000000#32)) (broadcastInDim S1280000x1 ![0] bcast_S1280000_S1280000x1_0 (dstRow e)) (broadcastInDim S1280000 ![] bcast_S_S1280000 (constant S_ .f32 0x3F800000#32))) (broadcastInDim S100000 ![] bcast_S_S100000 (constant S_ .f32 0x3F800000#32))) (broadcastInDim S100000 ![] bcast_S_S100000 (constant S_ .f32 0xBF000000#32))
/-- The symmetric normalisation per edge: the product of the endpoints' `dinv`. -/
def coef : FVec Ideal S1280000 .f32 :=
  mulf (Host.gather gather_S100000_S1280000x1_S1280000_n_0_n_n_0_1_1 (dinv e) (wrap (srcRow e))) (Host.gather gather_S100000_S1280000x1_S1280000_n_0_n_n_0_1_1 (dinv e) (wrap (dstRow e)))
/-- The self-loop weight per node. -/
def dinv2 : FVec Ideal S100000 .f32 := mulf (dinv e) (dinv e)

/-- Aggregation of 64 features per node over given edge weights `cf` and self-loop weights `d2`, plus the bias. -/
def agg64 (cf : FVec Ideal S1280000 .f32) (d2 : FVec Ideal S100000 .f32) (h : FVec Ideal S100000x64 .f32) (b : FVec Ideal S64 .f32) : FVec Ideal S100000x64 .f32 :=
  addf (addf (Host.scatterAdd scatter_S100000x64_S1280000x1_S1280000x64_1_0_0_1 (broadcastInDim S100000x64 ![] bcast_S_S100000x64 (constant S_ .f32 0x00000000#32)) (broadcastInDim S1280000x1 ![0] bcast_S1280000_S1280000x1_0 (dstRow e)) (mulf (Host.gather gather_S100000x64_S1280000x1_S1280000x64_1_0_n_n_0_1_164 h (wrap (srcRow e))) (broadcastInDim S1280000x64 ![0, 1] bcast_S1280000x1_S1280000x64_0_1 (broadcastInDim S1280000x1 ![0] bcast_S1280000_S1280000x1_0 cf)))) (mulf h (broadcastInDim S100000x64 ![0, 1] bcast_S100000x1_S100000x64_0_1 (broadcastInDim S100000x1 ![0] bcast_S100000_S100000x1_0 d2)))) (broadcastInDim S100000x64 ![0, 1] bcast_S1x64_S100000x64_0_1 (broadcastInDim S1x64 ![1] bcast_S64_S1x64_1 b))
/-- The same over 7 features per node. -/
def agg7 (cf : FVec Ideal S1280000 .f32) (d2 : FVec Ideal S100000 .f32) (h : FVec Ideal S100000x7 .f32) (b : FVec Ideal S7 .f32) : FVec Ideal S100000x7 .f32 :=
  addf (addf (Host.scatterAdd scatter_S100000x7_S1280000x1_S1280000x7_1_0_0_1 (broadcastInDim S100000x7 ![] bcast_S_S100000x7 (constant S_ .f32 0x00000000#32)) (broadcastInDim S1280000x1 ![0] bcast_S1280000_S1280000x1_0 (dstRow e)) (mulf (Host.gather gather_S100000x7_S1280000x1_S1280000x7_1_0_n_n_0_1_17 h (wrap (srcRow e))) (broadcastInDim S1280000x7 ![0, 1] bcast_S1280000x1_S1280000x7_0_1 (broadcastInDim S1280000x1 ![0] bcast_S1280000_S1280000x1_0 cf)))) (mulf h (broadcastInDim S100000x7 ![0, 1] bcast_S100000x1_S100000x7_0_1 (broadcastInDim S100000x1 ![0] bcast_S100000_S100000x1_0 d2)))) (broadcastInDim S100000x7 ![0, 1] bcast_S1x7_S100000x7_0_1 (broadcastInDim S1x7 ![1] bcast_S7_S1x7_1 b))
/-- The rectifier. -/
def relu (h : FVec Ideal S100000x64 .f32) : FVec Ideal S100000x64 .f32 :=
  maximumf h (broadcastInDim S100000x64 ![] bcast_S_S100000x64 (constant S_ .f32 0x00000000#32))

/-- The first convolution after its linear map, then the rectifier: the hidden layer from `h · w1`. -/
def hidden (hw1 : FVec Ideal S100000x64 .f32) (b1 : FVec Ideal S64 .f32) : FVec Ideal S100000x64 .f32 :=
  relu (agg64 e (coef e) (dinv2 e) hw1 b1)
/-- The second convolution after its linear map: the result from `hidden · w2`. -/
def out (hw2 : FVec Ideal S100000x7 .f32) (b2 : FVec Ideal S7 .f32) : FVec Ideal S100000x7 .f32 :=
  agg7 e (coef e) (dinv2 e) hw2 b2

/-- The reference's first linear map: the two projections with their biases, side by side, times `w1`. -/
def refLin1 (x : FVec Ideal S100000x500 .f32) (t : FVec Ideal S100000x384 .f32) (wf : FVec Ideal S500x64 .f32) (bf : FVec Ideal S64 .f32)
    (wt : FVec Ideal S384x64 .f32) (bt : FVec Ideal S64 .f32) (w1 : FVec Ideal S128x64 .f32) : FVec Ideal S100000x64 .f32 :=
  Host.dotGeneral dot_S100000x128_S128x64_S100000x64_1_0_0_1_n_n none (concatenate S100000x128 1 [⟨S100000x64, (addf (Host.dotGeneral dot_S100000x500_S500x64_S100000x64_1_0_0_1_n_n none x wf) (broadcastInDim S100000x64 ![0, 1] bcast_S1x64_S100000x64_0_1 (broadcastInDim S1x64 ![1] bcast_S64_S1x64_1 bf)))⟩, ⟨S100000x64, (addf (Host.dotGeneral dot_S100000x384_S384x64_S100000x64_1_0_0_1_n_n none t wt) (broadcastInDim S100000x64 ![0, 1] bcast_S1x64_S100000x64_0_1 (broadcastInDim S1x64 ![1] bcast_S64_S1x64_1 bt)))⟩] concatenates_S100000x64_S100000x64_S100000x128_d1) w1
/-- The second linear map, as the reference spells it. -/
def lin2 (h : FVec Ideal S100000x64 .f32) (w2 : FVec Ideal S64x7 .f32) : FVec Ideal S100000x7 .f32 :=
  Host.dotGeneral dot_S100000x64_S64x7_S100000x7_1_0_0_1_n_n none h w2

end Cert.Chains

end
-- ==== Proof.KChains.lean ====
/-
  What the kernel's program computes on the host before its first pallas_call: the two halves of `w1`, the
  pre-multiplied weights `wf · top w1` and `wt · bot w1`, and the pre-multiplied bias row
  `bf · top w1 + bt · bot w1`.
-/
import proofs.«152900_j34102040330885_1_alg».proof.KernelIdeal
import proofs.«152900_j34102040330885_1_alg».proof.Proof.Gen.KernelIdeal
import Idealize.ShloMosaic.PureOps.Ideal

noncomputable section

namespace Cert.KChains

open Cert.KernelIdeal Cert.KernelIdeal.Gen Idealize.ShloMosaic

/-- The upper 64 rows of `w1`. -/
def top (w1 : FVec Ideal S128x64 .f32) : FVec Ideal S64x64 .f32 :=
  extractStridedSlice S64x64 ![0, 0] w1 slices_S128x64_S64x64_0_0
/-- The lower 64 rows of `w1`. -/
def bot (w1 : FVec Ideal S128x64 .f32) : FVec Ideal S64x64 .f32 :=
  extractStridedSlice S64x64 ![64, 0] w1 slices_S128x64_S64x64_64_0
/-- The feature weights pre-multiplied by the upper half of `w1`. -/
def Wa (wf : FVec Ideal S500x64 .f32) (w1 : FVec Ideal S128x64 .f32) : FVec Ideal S500x64 .f32 :=
  Host.dotGeneral dot_S500x64_S64x64_S500x64_1_0_0_1_n_n none wf (top w1)
/-- The text weights pre-multiplied by the lower half of `w1`. -/
def Wb (wt : FVec Ideal S384x64 .f32) (w1 : FVec Ideal S128x64 .f32) : FVec Ideal S384x64 .f32 :=
  Host.dotGeneral dot_S384x64_S64x64_S384x64_1_0_0_1_n_n none wt (bot w1)
/-- The two bias vectors, each as one row times its half of `w1`, added, as one row. -/
def bias (bf bt : FVec Ideal S64 .f32) (w1 : FVec Ideal S128x64 .f32) : FVec Ideal S1x64 .f32 :=
  shapeCast _ (addf (shapeCast _ (Host.dotGeneral dot_S1x64_S64x64_S1x64_1_0_0_1_n_n none (broadcastInDim S1x64 ![1] bcast_S64_S1x64_1 bf) (top w1)) shapeCasts_S1x64_S64) (shapeCast _ (Host.dotGeneral dot_S1x64_S64x64_S1x64_1_0_0_1_n_n none (broadcastInDim S1x64 ![1] bcast_S64_S1x64_1 bt) (bot w1)) shapeCasts_S1x64_S64)) shapeCasts_S64_S1x64

end Cert.KChains

end
-- ==== Proof.KernelHost.lean ====
/-
  The kernel program's host stretches read as values: what each buffer the later steps use holds at each boundary
  between host operations and pallas_calls, in terms of the launch arguments, the two pallas_calls' output arrays, and
  the shared graph-convolution functions.
-/
import proofs.«152900_j34102040330885_1_alg».proof.Proof.Gen.KernelIdeal.Frame
import proofs.«152900_j34102040330885_1_alg».proof.Proof.Chains
import proofs.«152900_j34102040330885_1_alg».proof.Proof.KChains
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## Before the first pallas_call -/

theorem W1_src (c : Dev nD) : W1 m ρ c (Proc.devRef .tc main_v1) = Cert.Chains.srcRow (m ((c : Thread nD τ).loc main_arg2)) := by
  show StableHlo.after hostOps0 (W0 m ρ c) (Proc.devRef .tc main_v1) = _
  after_results
  rfl
theorem W1_dst (c : Dev nD) : W1 m ρ c (Proc.devRef .tc main_v3) = Cert.Chains.dstRow (m ((c : Thread nD τ).loc main_arg2)) := by
  show StableHlo.after hostOps0 (W0 m ρ c) (Proc.devRef .tc main_v3) = _
  after_results
  rfl
theorem W1_Wa (c : Dev nD) : W1 m ρ c (Proc.devRef .tc main_v6)
    = Cert.KChains.Wa (m ((c : Thread nD τ).loc main_arg3)) (m ((c : Thread nD τ).loc main_arg7)) := by
  show StableHlo.after hostOps0 (W0 m ρ c) (Proc.devRef .tc main_v6) = _
  after_results
  rfl
theorem W1_Wb (c : Dev nD) : W1 m ρ c (Proc.devRef .tc main_v7)
    = Cert.KChains.Wb (m ((c : Thread nD τ).loc main_arg5)) (m ((c : Thread nD τ).loc main_arg7)) := by
  show StableHlo.after hostOps0 (W0 m ρ c) (Proc.devRef .tc main_v7) = _
  after_results
  rfl
theorem W1_bias (c : Dev nD) : W1 m ρ c (Proc.devRef .tc main_v15)
    = Cert.KChains.bias (m ((c : Thread nD τ).loc main_arg4)) (m ((c : Thread nD τ).loc main_arg6)) (m ((c : Thread nD τ).loc main_arg7)) := by
  show StableHlo.after hostOps0 (W0 m ρ c) (Proc.devRef .tc main_v15) = _
  after_results_simp
  rfl
theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results

/-! ## Across the first pallas_call: its output array is what the pipeline leaves, every other buffer is kept -/

theorem W2_hw1 (c : Dev nD) : W2 m ρ c (Proc.devRef .tc main_v16) = (dat0 (V1 m ρ) c).arrAt 5 cfg0.N := W2_arr m ρ c 5
theorem W2_src (c : Dev nD) : W2 m ρ c (Proc.devRef .tc main_v1) = Cert.Chains.srcRow (m ((c : Thread nD τ).loc main_arg2)) :=
  (W2_of_ne m ρ c main_v1 (by decide)).trans (W1_src m ρ c)
theorem W2_dst (c : Dev nD) : W2 m ρ c (Proc.devRef .tc main_v3) = Cert.Chains.dstRow (m ((c : Thread nD τ).loc main_arg2)) :=
  (W2_of_ne m ρ c main_v3 (by decide)).trans (W1_dst m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

/-! ## Between the pallas_calls -/

theorem W3_coef (c : Dev nD) : W3 m ρ c (Proc.devRef .tc main_v39) = Cert.Chains.coef (m ((c : Thread nD τ).loc main_arg2)) := by
  show StableHlo.after hostOps1 (W2 m ρ c) (Proc.devRef .tc main_v39) = _
  after_results_simp
  rw [W2_src, W2_dst]
  rfl

end Cert.KernelIdeal.Host

end
-- ==== Proof.KernelHost2.lean ====
/-
  Between the two pallas_calls: the normalisation weights and the first convolution, read off the host operations.
-/
import proofs.«152900_j34102040330885_1_alg».proof.Proof.KernelHost
set_option maxRecDepth 16384
noncomputable section
namespace Cert.KernelIdeal.Host
open Cert.KernelIdeal Cert.KernelIdeal.Gen Idealize.ShloMosaic Idealize.ShloMosaic.TcCoe Idealize.SL.Sem
variable (m : (ℓ : Loc nD τ sig) → Buf (Elt Ideal) ℓ) (ρ : Dev nD → PrngReg)

/-! ## Between the pallas_calls -/

theorem W3_dinv2 (c : Dev nD) : W3 m ρ c (Proc.devRef .tc main_v40) = Cert.Chains.dinv2 (m ((c : Thread nD τ).loc main_arg2)) := by
  show StableHlo.after hostOps1 (W2 m ρ c) (Proc.devRef .tc main_v40) = _
  after_results_simp
  rw [W2_dst]
  rfl
theorem W3_src (c : Dev nD) : W3 m ρ c (Proc.devRef .tc main_v1) = Cert.Chains.srcRow (m ((c : Thread nD τ).loc main_arg2)) := by
  show StableHlo.after hostOps1 (W2 m ρ c) (Proc.devRef .tc main_v1) = _
  after_results_simp
  exact W2_src m ρ c
theorem W3_dst (c : Dev nD) : W3 m ρ c (Proc.devRef .tc main_v3) = Cert.Chains.dstRow (m ((c : Thread nD τ).loc main_arg2)) := by
  show StableHlo.after hostOps1 (W2 m ρ c) (Proc.devRef .tc main_v3) = _
  after_results_simp
  exact W2_dst m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results_simp
  exact W2_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results_simp
  exact W2_arg10 m ρ c
/-- The first convolution before its rectifier, from the first pallas_call's output array. -/
theorem W3_pre (c : Dev nD) : W3 m ρ c (Proc.devRef .tc main_v60)
    = Cert.Chains.agg64 (m ((c : Thread nD τ).loc main_arg2)) (Cert.Chains.coef (m ((c : Thread nD τ).loc main_arg2)))
        (Cert.Chains.dinv2 (m ((c : Thread nD τ).loc main_arg2))) (W2 m ρ c (Proc.devRef .tc main_v16)) (m ((c : Thread nD τ).loc main_arg8)) := by
  show StableHlo.after hostOps1 (W2 m ρ c) (Proc.devRef .tc main_v60) = _
  after_results_simp
  rw [W2_src, W2_dst, W2_arg8]
  rfl

end Cert.KernelIdeal.Host

end
-- ==== Proof.KernelHost3.lean ====
/-
  The rectifier, the second pallas_call and the second convolution, read off the host operations: the result buffer's
  final contents from the second pallas_call's output array.
-/
import proofs.«152900_j34102040330885_1_alg».proof.Proof.KernelHost2
set_option maxRecDepth 16384
noncomputable section
namespace Cert.KernelIdeal.Host
open Cert.KernelIdeal Cert.KernelIdeal.Gen Idealize.ShloMosaic Idealize.ShloMosaic.TcCoe Idealize.SL.Sem
variable (m : (ℓ : Loc nD τ sig) → Buf (Elt Ideal) ℓ) (ρ : Dev nD → PrngReg)

/-! ## The rectifier (a called function's three operations), then the second pallas_call -/

/-- The rectifier's three operations, from any buffer contents: the maximum with the zero splat. -/
theorem relu_stage (W : Valuation τ sig (Elt Ideal)) :
    StableHlo.after hostOps1_1 W (Proc.devRef .tc main_v61) = Cert.Chains.relu (W (Proc.devRef .tc main_v60)) := by
  after_results_simp
  rfl
/-- The hidden layer, from the first pallas_call's output array. -/
theorem W4_hidden (c : Dev nD) : W4 m ρ c (Proc.devRef .tc main_v61)
    = Cert.Chains.hidden (m ((c : Thread nD τ).loc main_arg2)) (W2 m ρ c (Proc.devRef .tc main_v16)) (m ((c : Thread nD τ).loc main_arg8)) :=
  (relu_stage (W3 m ρ c)).trans (congrArg Cert.Chains.relu (W3_pre m ρ c))
theorem W4_coef (c : Dev nD) : W4 m ρ c (Proc.devRef .tc main_v39) = Cert.Chains.coef (m ((c : Thread nD τ).loc main_arg2)) := by
  have h := W3_coef m ρ c
  show StableHlo.after hostOps1_1 (W3 m ρ c) (Proc.devRef .tc main_v39) = _
  generalize W3 m ρ c = W at h ⊢
  after_results_simp
  exact h
theorem W4_dinv2 (c : Dev nD) : W4 m ρ c (Proc.devRef .tc main_v40) = Cert.Chains.dinv2 (m ((c : Thread nD τ).loc main_arg2)) := by
  have h := W3_dinv2 m ρ c
  show StableHlo.after hostOps1_1 (W3 m ρ c) (Proc.devRef .tc main_v40) = _
  generalize W3 m ρ c = W at h ⊢
  after_results_simp
  exact h
theorem W4_src (c : Dev nD) : W4 m ρ c (Proc.devRef .tc main_v1) = Cert.Chains.srcRow (m ((c : Thread nD τ).loc main_arg2)) := by
  have h := W3_src m ρ c
  show StableHlo.after hostOps1_1 (W3 m ρ c) (Proc.devRef .tc main_v1) = _
  generalize W3 m ρ c = W at h ⊢
  after_results_simp
  exact h
theorem W4_dst (c : Dev nD) : W4 m ρ c (Proc.devRef .tc main_v3) = Cert.Chains.dstRow (m ((c : Thread nD τ).loc main_arg2)) := by
  have h := W3_dst m ρ c
  show StableHlo.after hostOps1_1 (W3 m ρ c) (Proc.devRef .tc main_v3) = _
  generalize W3 m ρ c = W at h ⊢
  after_results_simp
  exact h
theorem W4_arg9 (c : Dev nD) : W4 m ρ c (Proc.devRef .tc main_arg9) = m ((c : Thread nD τ).loc main_arg9) := by
  have h := W3_arg9 m ρ c
  show StableHlo.after hostOps1_1 (W3 m ρ c) (Proc.devRef .tc main_arg9) = _
  generalize W3 m ρ c = W at h ⊢
  after_results_simp
  exact h
theorem W4_arg10 (c : Dev nD) : W4 m ρ c (Proc.devRef .tc main_arg10) = m ((c : Thread nD τ).loc main_arg10) := by
  have h := W3_arg10 m ρ c
  show StableHlo.after hostOps1_1 (W3 m ρ c) (Proc.devRef .tc main_arg10) = _
  generalize W3 m ρ c = W at h ⊢
  after_results_simp
  exact h

theorem W5_hw2 (c : Dev nD) : W5 m ρ c (Proc.devRef .tc main_v62) = (dat1 (V4 m ρ) c).arrAt 2 cfg1.N := W5_arr m ρ c 2
theorem W5_coef (c : Dev nD) : W5 m ρ c (Proc.devRef .tc main_v39) = Cert.Chains.coef (m ((c : Thread nD τ).loc main_arg2)) :=
  (W5_of_ne m ρ c main_v39 (by decide)).trans (W4_coef m ρ c)
theorem W5_dinv2 (c : Dev nD) : W5 m ρ c (Proc.devRef .tc main_v40) = Cert.Chains.dinv2 (m ((c : Thread nD τ).loc main_arg2)) :=
  (W5_of_ne m ρ c main_v40 (by decide)).trans (W4_dinv2 m ρ c)
theorem W5_src (c : Dev nD) : W5 m ρ c (Proc.devRef .tc main_v1) = Cert.Chains.srcRow (m ((c : Thread nD τ).loc main_arg2)) :=
  (W5_of_ne m ρ c main_v1 (by decide)).trans (W4_src m ρ c)
theorem W5_dst (c : Dev nD) : W5 m ρ c (Proc.devRef .tc main_v3) = Cert.Chains.dstRow (m ((c : Thread nD τ).loc main_arg2)) :=
  (W5_of_ne m ρ c main_v3 (by decide)).trans (W4_dst m ρ c)
theorem W5_arg10 (c : Dev nD) : W5 m ρ c (Proc.devRef .tc main_arg10) = m ((c : Thread nD τ).loc main_arg10) :=
  (W5_of_ne m ρ c main_arg10 (by decide)).trans (W4_arg10 m ρ c)

/-! ## After the second pallas_call -/

/-- The result: the second convolution of the second pallas_call's output array. -/
theorem W6_out (c : Dev nD) : W6 m ρ c (Proc.devRef .tc main_v82)
    = Cert.Chains.out (m ((c : Thread nD τ).loc main_arg2)) (W5 m ρ c (Proc.devRef .tc main_v62)) (m ((c : Thread nD τ).loc main_arg10)) := by
  show StableHlo.after hostOps2 (W5 m ρ c) (Proc.devRef .tc main_v82) = _
  after_results_simp
  rw [W5_src, W5_dst, W5_coef, W5_dinv2, W5_arg10]
  rfl

end Cert.KernelIdeal.Host

end
-- ==== Proof.Spec.lean ====
/-
  The mathematics both programs compute, stated once over literal shapes and the extended reals.

  A matrix product is read index by index: entry (r, c) of `a · b` is the sum over the shared axis of
  `a (r, l) * b (l, c)`. The first layer in its fused form is `x · wa + t · wb + bias`, the bias a single row added to
  every row. "Every entry is a real number" is what the finiteness of the inputs gives, and it is what lets a factor move
  across a sum.
-/
import Idealize.ShloMosaic.PureOps.Ideal
import Idealize.ShloMosaic.Lib.ValueIdx

noncomputable section

open scoped BigOperators

namespace Cert.Spec

open Idealize.ShloMosaic Idealize.ShloMosaic.ValueIdx

/-- The row coordinate of an index of an `n0 × n1` array, as a number below `n0`. -/
abbrev row {n0 n1 : Nat} (i : (⟨2, ![n0, n1]⟩ : Shape).Idx) : Fin n0 := ⟨(i 0).val, (i 0).isLt⟩
/-- The column coordinate of an index of an `n0 × n1` array, as a number below `n1`. -/
abbrev col {n0 n1 : Nat} (i : (⟨2, ![n0, n1]⟩ : Shape).Idx) : Fin n1 := ⟨(i 1).val, (i 1).isLt⟩

/-- The matrix product `a · b`, entry by entry: the sum over the shared axis. -/
def mm {n k p : Nat} (a : (⟨2, ![n, k]⟩ : Shape).Idx → EReal) (b : (⟨2, ![k, p]⟩ : Shape).Idx → EReal) :
    (⟨2, ![n, p]⟩ : Shape).Idx → EReal :=
  fun i => ∑ l : Fin k, a (ix2 (row i) l) * b (ix2 l (col i))

/-- The fused first layer: `x · wa + t · wb` plus the one-row bias on every row. -/
def fused (x : (⟨2, ![100000, 500]⟩ : Shape).Idx → EReal) (t : (⟨2, ![100000, 384]⟩ : Shape).Idx → EReal)
    (wa : (⟨2, ![500, 64]⟩ : Shape).Idx → EReal) (wb : (⟨2, ![384, 64]⟩ : Shape).Idx → EReal)
    (bias : (⟨2, ![1, 64]⟩ : Shape).Idx → EReal) : (⟨2, ![100000, 64]⟩ : Shape).Idx → EReal :=
  fun i => (mm x wa i + mm t wb i) + bias (ix2 (0 : Fin 1) (col i))

/-- Every entry of the array is a real number (neither infinity). -/
def IsReal {S : Shape} (x : S.Idx → EReal) : Prop := ∀ i, ∃ r : ℝ, x i = (r : EReal)

end Cert.Spec

end
-- ==== Proof.Region0.lean ====
/-
  The first pallas_call's output array. Grid point t reads rows 4000·t … 4000·t+3999 of the node features and of the
  text features, the two pre-multiplied weight matrices and the bias row whole, and writes the same rows of the output:
  two matrix products into zero accumulators (the narrowing to bf16 is the identity on extended reals), their sum, and
  the bias row added to every row. Entry (r, c) of what point t writes is therefore the fused first layer at row
  4000·t + r; the 25 blocks tile the array, so the whole array is the fused layer.
-/
import proofs.«152900_j34102040330885_1_alg».proof.Proof.Gen.KernelIdeal.Frame
import proofs.«152900_j34102040330885_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-!
  The first pallas_call, read as mathematics. Its body, at the extended reals, stores at entry (p, q) of a 4000-row block
  the two products' entries added, plus the bias row's entry q; grid point t stages rows 4000·t … 4000·t + 3999 of the two
  row-blocked inputs and the weights and bias whole, and writes its block back at the same rows; the 25 blocks cover the
  100000 rows. So the output array ends as `x · wa + t · wb + bias`, index by index.
-/

/-! ## The body's arithmetic at an index -/

/-- The left operand's row coordinate at output index `i` is `i`'s row, whatever the contraction index. -/
theorem lhs_xwa_0 (i : S4000x64.Idx) (q : dot_S4000x500_S500x64_S4000x64_1_0_0_1_n_n.contr.Idx) :
    (dot_S4000x500_S500x64_S4000x64_1_0_0_1_n_n.lhsIdx i q 0).val = (i 0).val := by
  unfold DotDims.lhsIdx
  rw [dif_neg (show ¬(0 : Fin S4000x500.rank) ∈ dot_S4000x500_S500x64_S4000x64_1_0_0_1_n_n.lhsBatch by decide), dif_pos (show (0 : Fin S4000x500.rank) ∈ dot_S4000x500_S500x64_S4000x64_1_0_0_1_n_n.lhsNonContracting by decide)]
  rfl
/-- The left operand's column coordinate is the contraction index. -/
theorem lhs_xwa_1 (i : S4000x64.Idx) (q : dot_S4000x500_S500x64_S4000x64_1_0_0_1_n_n.contr.Idx) :
    (dot_S4000x500_S500x64_S4000x64_1_0_0_1_n_n.lhsIdx i q 1).val = (q ⟨0, by decide⟩).val :=
  dot_S4000x500_S500x64_S4000x64_1_0_0_1_n_n.lhsIdx_val_of_single rfl i q
/-- The right operand's row coordinate is the contraction index. -/
theorem rhs_xwa_0 (i : S4000x64.Idx) (q : dot_S4000x500_S500x64_S4000x64_1_0_0_1_n_n.contr.Idx) :
    (dot_S4000x500_S500x64_S4000x64_1_0_0_1_n_n.rhsIdx i q 0).val = (q ⟨0, by decide⟩).val :=
  dot_S4000x500_S500x64_S4000x64_1_0_0_1_n_n.rhsIdx_val_of_single rfl i q
/-- The right operand's column coordinate at output index `i` is `i`'s column. -/
theorem rhs_xwa_1 (i : S4000x64.Idx) (q : dot_S4000x500_S500x64_S4000x64_1_0_0_1_n_n.contr.Idx) :
    (dot_S4000x500_S500x64_S4000x64_1_0_0_1_n_n.rhsIdx i q 1).val = (i 1).val := by
  unfold DotDims.rhsIdx
  rw [dif_neg (show ¬(1 : Fin S500x64.rank) ∈ dot_S4000x500_S500x64_S4000x64_1_0_0_1_n_n.rhsBatch by decide), dif_pos (show (1 : Fin S500x64.rank) ∈ dot_S4000x500_S500x64_S4000x64_1_0_0_1_n_n.rhsNonContracting by decide)]
  rfl

/-- A [4000,500] × [500,64] product into the zero accumulator, entry (p, q): the sum over the shared axis. -/
theorem matmul_xwa_apply (a : FVec Ideal S4000x500 .bf16) (b : FVec Ideal S500x64 .bf16) (p : Fin 4000) (q : Fin 64) :
    matmul dot_S4000x500_S500x64_S4000x64_1_0_0_1_n_n none a b (constant (F := Ideal) S4000x64 .f32 0x00000000#32) (ix2 p q)
      = ∑ l : Fin 500, a (ix2 p l) * b (ix2 l q) := by
  refine (Ideal.matmul_constant_zero_apply dot_S4000x500_S500x64_S4000x64_1_0_0_1_n_n none a b (ix2 p q)).trans ?_
  rw [← Equiv.sum_comp (contrEquiv1 dot_S4000x500_S500x64_S4000x64_1_0_0_1_n_n 500 rfl rfl).symm]
  refine Finset.sum_congr rfl fun k _ => ?_
  have hk := contrEquiv1_symm_val dot_S4000x500_S500x64_S4000x64_1_0_0_1_n_n 500 rfl rfl k
  have el : dot_S4000x500_S500x64_S4000x64_1_0_0_1_n_n.lhsIdx (ix2 p q) ((contrEquiv1 dot_S4000x500_S500x64_S4000x64_1_0_0_1_n_n 500 rfl rfl).symm k) = ix2 p k := funext fun a => Fin.ext (by
    match a with
    | ⟨0, _⟩ => exact lhs_xwa_0 _ _
    | ⟨1, _⟩ => exact (lhs_xwa_1 _ _).trans hk)
  have er : dot_S4000x500_S500x64_S4000x64_1_0_0_1_n_n.rhsIdx (ix2 p q) ((contrEquiv1 dot_S4000x500_S500x64_S4000x64_1_0_0_1_n_n 500 rfl rfl).symm k) = ix2 k q := funext fun a => Fin.ext (by
    match a with
    | ⟨0, _⟩ => exact (rhs_xwa_0 _ _).trans hk
    | ⟨1, _⟩ => exact rhs_xwa_1 _ _)
  rw [el, er]

/-- The left operand's row coordinate at output index `i` is `i`'s row, whatever the contraction index. -/
theorem lhs_twb_0 (i : S4000x64.Idx) (q : dot_S4000x384_S384x64_S4000x64_1_0_0_1_n_n.contr.Idx) :
    (dot_S4000x384_S384x64_S4000x64_1_0_0_1_n_n.lhsIdx i q 0).val = (i 0).val := by
  unfold DotDims.lhsIdx
  rw [dif_neg (show ¬(0 : Fin S4000x384.rank) ∈ dot_S4000x384_S384x64_S4000x64_1_0_0_1_n_n.lhsBatch by decide), dif_pos (show (0 : Fin S4000x384.rank) ∈ dot_S4000x384_S384x64_S4000x64_1_0_0_1_n_n.lhsNonContracting by decide)]
  rfl
/-- The left operand's column coordinate is the contraction index. -/
theorem lhs_twb_1 (i : S4000x64.Idx) (q : dot_S4000x384_S384x64_S4000x64_1_0_0_1_n_n.contr.Idx) :
    (dot_S4000x384_S384x64_S4000x64_1_0_0_1_n_n.lhsIdx i q 1).val = (q ⟨0, by decide⟩).val :=
  dot_S4000x384_S384x64_S4000x64_1_0_0_1_n_n.lhsIdx_val_of_single rfl i q
/-- The right operand's row coordinate is the contraction index. -/
theorem rhs_twb_0 (i : S4000x64.Idx) (q : dot_S4000x384_S384x64_S4000x64_1_0_0_1_n_n.contr.Idx) :
    (dot_S4000x384_S384x64_S4000x64_1_0_0_1_n_n.rhsIdx i q 0).val = (q ⟨0, by decide⟩).val :=
  dot_S4000x384_S384x64_S4000x64_1_0_0_1_n_n.rhsIdx_val_of_single rfl i q
/-- The right operand's column coordinate at output index `i` is `i`'s column. -/
theorem rhs_twb_1 (i : S4000x64.Idx) (q : dot_S4000x384_S384x64_S4000x64_1_0_0_1_n_n.contr.Idx) :
    (dot_S4000x384_S384x64_S4000x64_1_0_0_1_n_n.rhsIdx i q 1).val = (i 1).val := by
  unfold DotDims.rhsIdx
  rw [dif_neg (show ¬(1 : Fin S384x64.rank) ∈ dot_S4000x384_S384x64_S4000x64_1_0_0_1_n_n.rhsBatch by decide), dif_pos (show (1 : Fin S384x64.rank) ∈ dot_S4000x384_S384x64_S4000x64_1_0_0_1_n_n.rhsNonContracting by decide)]
  rfl

/-- A [4000,384] × [384,64] product into the zero accumulator, entry (p, q): the sum over the shared axis. -/
theorem matmul_twb_apply (a : FVec Ideal S4000x384 .bf16) (b : FVec Ideal S384x64 .bf16) (p : Fin 4000) (q : Fin 64) :
    matmul dot_S4000x384_S384x64_S4000x64_1_0_0_1_n_n none a b (constant (F := Ideal) S4000x64 .f32 0x00000000#32) (ix2 p q)
      = ∑ l : Fin 384, a (ix2 p l) * b (ix2 l q) := by
  refine (Ideal.matmul_constant_zero_apply dot_S4000x384_S384x64_S4000x64_1_0_0_1_n_n none a b (ix2 p q)).trans ?_
  rw [← Equiv.sum_comp (contrEquiv1 dot_S4000x384_S384x64_S4000x64_1_0_0_1_n_n 384 rfl rfl).symm]
  refine Finset.sum_congr rfl fun k _ => ?_
  have hk := contrEquiv1_symm_val dot_S4000x384_S384x64_S4000x64_1_0_0_1_n_n 384 rfl rfl k
  have el : dot_S4000x384_S384x64_S4000x64_1_0_0_1_n_n.lhsIdx (ix2 p q) ((contrEquiv1 dot_S4000x384_S384x64_S4000x64_1_0_0_1_n_n 384 rfl rfl).symm k) = ix2 p k := funext fun a => Fin.ext (by
    match a with
    | ⟨0, _⟩ => exact lhs_twb_0 _ _
    | ⟨1, _⟩ => exact (lhs_twb_1 _ _).trans hk)
  have er : dot_S4000x384_S384x64_S4000x64_1_0_0_1_n_n.rhsIdx (ix2 p q) ((contrEquiv1 dot_S4000x384_S384x64_S4000x64_1_0_0_1_n_n 384 rfl rfl).symm k) = ix2 k q := funext fun a => Fin.ext (by
    match a with
    | ⟨0, _⟩ => exact (rhs_twb_0 _ _).trans hk
    | ⟨1, _⟩ => exact rhs_twb_1 _ _)
  rw [el, er]

/-- The one-row bias broadcast over the 4000 rows, entry (p, q): the bias at column q. -/
theorem bias_row_apply (x : FVec Ideal S1x64 .f32) (p : Fin 4000) (q : Fin 64) :
    broadcastTo S4000x64 x broadcasts_S1x64_S4000x64 (ix2 p q) = x (ix2 (0 : Fin 1) q) := by
  refine broadcastTo_apply x broadcasts_S1x64_S4000x64 (ix2 p q) (ix2 (0 : Fin 1) q) fun a => ?_
  match a with
  | ⟨0, _⟩ => rfl
  | ⟨1, _⟩ => rfl

/-- The body's stored value at entry (p, q) of its 4000-row block: the two products' entries added, plus the bias. -/
theorem payload_apply (x0 : Vec Ideal S4000x500 .f32) (x1 : Vec Ideal S4000x384 .f32) (x2 : Vec Ideal S500x64 .f32)
    (x3 : Vec Ideal S384x64 .f32) (x4 : Vec Ideal S1x64 .f32) (p : Fin 4000) (q : Fin 64) :
    k0_pay1 x0 x1 x2 x3 x4 (ix2 p q)
      = (∑ l : Fin 500, x0 (ix2 p l) * x2 (ix2 l q)) + (∑ l : Fin 384, x1 (ix2 p l) * x3 (ix2 l q)) + x4 (ix2 (0 : Fin 1) q) := by
  unfold k0_pay1
  refine (addf_apply _ _ _).trans ?_
  refine congrArg₂ (· + ·) ((addf_apply _ _ _).trans (congrArg₂ (· + ·) ?_ ?_)) ?_
  · refine (matmul_xwa_apply _ _ p q).trans (Finset.sum_congr rfl fun l _ => ?_)
    rw [shapeCast_self]; rfl
  · refine (matmul_twb_apply _ _ p q).trans (Finset.sum_congr rfl fun l _ => ?_)
    rw [shapeCast_self]; rfl
  · rw [shapeCast_self]
    exact bias_row_apply x4 p q

/-! ## From blocks to the array -/

theorem offsets_zero : (![0, 0] : Fin 2 → Nat) = fun _ => 0 := funext fun a => by fin_cases a <;> rfl

/-- The printed index maps, decided over the 25 grid points: the two row-blocked inputs and the output sit at block
    row `t`, block column 0; the two weight matrices and the bias are whole, at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem points_25 : cfg0.N = 25 := by decide

/-- Row p of point t's block of x is row 4000·t + p of x. -/
theorem x_block_apply (c : Dev nD) (t : Fin cfg0.N) (p : Fin 4000) (l : Fin 500) (r : Fin 100000)
    (hr : r.val = t.val * 4000 + p.val) :
    (iblk0 V c 0 t : Vec Ideal S4000x500 .f32) (ix2 p l) = V c main_arg0 (ix2 r l) := by
  obtain ⟨e0, e1, -⟩ := block_indices t
  unfold iblk0
  rw [View.read_apply]
  show V c main_arg0 _ = V c main_arg0 _
  congr 1
  funext a; apply Fin.ext
  match a with
  | ⟨0, _⟩ => show win0_0.index t (0 : Fin 2) * 4000 + 1 * p.val = r.val; rw [e0, hr]; omega
  | ⟨1, _⟩ => show win0_0.index t (1 : Fin 2) * 500 + 1 * l.val = l.val; rw [e1]; omega

/-- Row p of point t's block of the second input is row 4000·t + p of it. -/
theorem t_block_apply (c : Dev nD) (t : Fin cfg0.N) (p : Fin 4000) (l : Fin 384) (r : Fin 100000)
    (hr : r.val = t.val * 4000 + p.val) :
    (iblk0 V c 1 t : Vec Ideal S4000x384 .f32) (ix2 p l) = V c main_arg1 (ix2 r l) := by
  obtain ⟨-, -, e0, e1, -⟩ := block_indices t
  unfold iblk0
  rw [View.read_apply]
  show V c main_arg1 _ = V c main_arg1 _
  congr 1
  funext a; apply Fin.ext
  match a with
  | ⟨0, _⟩ => show win0_1.index t (0 : Fin 2) * 4000 + 1 * p.val = r.val; rw [e0, hr]; omega
  | ⟨1, _⟩ => show win0_1.index t (1 : Fin 2) * 384 + 1 * l.val = l.val; rw [e1]; omega

/-- The first weight matrix is staged whole at every point. -/
theorem wa_block_apply (c : Dev nD) (t : Fin cfg0.N) (l : Fin 500) (q : Fin 64) :
    (iblk0 V c 2 t : Vec Ideal S500x64 .f32) (ix2 l q) = V c main_v6 (ix2 l q) := by
  obtain ⟨-, -, -, -, e0, e1, -⟩ := block_indices t
  unfold iblk0
  rw [View.read_apply]
  show V c main_v6 _ = V c main_v6 _
  congr 1
  funext a; apply Fin.ext
  match a with
  | ⟨0, _⟩ => show win0_2.index t (0 : Fin 2) * 500 + 1 * l.val = l.val; rw [e0]; omega
  | ⟨1, _⟩ => show win0_2.index t (1 : Fin 2) * 64 + 1 * q.val = q.val; rw [e1]; omega

/-- The second weight matrix is staged whole at every point. -/
theorem wb_block_apply (c : Dev nD) (t : Fin cfg0.N) (l : Fin 384) (q : Fin 64) :
    (iblk0 V c 3 t : Vec Ideal S384x64 .f32) (ix2 l q) = V c main_v7 (ix2 l q) := by
  obtain ⟨-, -, -, -, -, -, e0, e1, -⟩ := block_indices t
  unfold iblk0
  rw [View.read_apply]
  show V c main_v7 _ = V c main_v7 _
  congr 1
  funext a; apply Fin.ext
  match a with
  | ⟨0, _⟩ => show win0_3.index t (0 : Fin 2) * 384 + 1 * l.val = l.val; rw [e0]; omega
  | ⟨1, _⟩ => show win0_3.index t (1 : Fin 2) * 64 + 1 * q.val = q.val; rw [e1]; omega

/-- The one-row bias is staged whole at every point. -/
theorem bias_block_apply (c : Dev nD) (t : Fin cfg0.N) (q : Fin 64) :
    (iblk0 V c 4 t : Vec Ideal S1x64 .f32) (ix2 (0 : Fin 1) q) = V c main_v15 (ix2 (0 : Fin 1) q) := by
  obtain ⟨-, -, -, -, -, -, -, -, e0, e1, -⟩ := block_indices t
  unfold iblk0
  rw [View.read_apply]
  show V c main_v15 _ = V c main_v15 _
  congr 1
  funext a; apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-- Entry (p, q) of point t's output block sits at row 4000·t + p, column q of the output array. -/
theorem out_block_emb (t : Fin cfg0.N) (p : Fin 4000) (q : Fin 64) (r : Fin 100000)
    (hr : r.val = t.val * 4000 + p.val) :
    ((cfg0.win 5).blk t).view.emb (ix2 p q) = ix2 r q := by
  obtain ⟨-, -, -, -, -, -, -, -, -, -, e0, e1⟩ := block_indices t
  funext a; apply Fin.ext
  match a with
  | ⟨0, _⟩ => show win0_5.index t (0 : Fin 2) * 4000 + 1 * p.val = r.val; rw [e0, hr]; omega
  | ⟨1, _⟩ => show win0_5.index t (1 : Fin 2) * 64 + 1 * q.val = q.val; rw [e1]; omega

/-- Entry j of what the body leaves at point t is the fused first layer at the array index j's place in block t. -/
theorem point_value (c : Dev nD) (t : Fin cfg0.N) (j : S4000x64.Idx) :
    k0_pay1 (iblk0 V c 0 t : Vec Ideal S4000x500 .f32) (iblk0 V c 1 t : Vec Ideal S4000x384 .f32)
        (iblk0 V c 2 t : Vec Ideal S500x64 .f32) (iblk0 V c 3 t : Vec Ideal S384x64 .f32) (iblk0 V c 4 t : Vec Ideal S1x64 .f32) j
      = Cert.Spec.fused (V c main_arg0) (V c main_arg1) (V c main_v6) (V c main_v7) (V c main_v15)
          (((cfg0.win 5).blk t).view.emb j) := by
  obtain ⟨p, q, rfl⟩ : ∃ (p : Fin 4000) (q : Fin 64), j = ix2 p q := ⟨j 0, j 1, eq_ix2 j⟩
  have ht : t.val < 25 := lt_of_lt_of_eq t.isLt points_25
  have hr : t.val * 4000 + p.val < 100000 := by have := p.isLt; omega
  rw [out_block_emb t p q ⟨t.val * 4000 + p.val, hr⟩ rfl]
  refine (payload_apply (iblk0 V c 0 t : Vec Ideal S4000x500 .f32) (iblk0 V c 1 t : Vec Ideal S4000x384 .f32)
        (iblk0 V c 2 t : Vec Ideal S500x64 .f32) (iblk0 V c 3 t : Vec Ideal S384x64 .f32) (iblk0 V c 4 t : Vec Ideal S1x64 .f32) p q).trans ?_
  unfold Cert.Spec.fused Cert.Spec.mm
  refine congrArg₂ (· + ·) (congrArg₂ (· + ·) (Finset.sum_congr rfl fun l _ => ?_) (Finset.sum_congr rfl fun l _ => ?_)) ?_
  · rw [x_block_apply V c t p l ⟨t.val * 4000 + p.val, hr⟩ rfl, wa_block_apply V c t l q]
  · rw [t_block_apply V c t p l ⟨t.val * 4000 + p.val, hr⟩ rfl, wb_block_apply V c t l q]
  · rw [bias_block_apply V c t q]

/-- WHAT POINT t WRITES BACK is block t of the fused first layer of the arrays the region found. -/
theorem flushed_eq (c : Dev nD) (t : Fin cfg0.N) :
    (dat0 (F := Ideal) V c).flushed 5 t
      = ((cfg0.win 5).blk t).view.read (Elt Ideal)
          (Cert.Spec.fused (V c main_arg0) (V c main_arg1) (V c main_v6) (V c main_v7) (V c main_v15)) := by
  show (cfg0.win 5).cut (grid0.coords t) ((dat0 V c).after 5 t) = _
  rw [after0_5]
  unfold out0_5
  rw [View.canon_unit_zero offsets_zero]
  simp only [View.ld_unit_zero (S := S4000x500) offsets_zero, View.ld_unit_zero (S := S4000x384) offsets_zero,
    View.ld_unit_zero (S := S500x64) offsets_zero, View.ld_unit_zero (S := S384x64) offsets_zero,
    View.ld_unit_zero (S := S1x64) offsets_zero]
  funext j
  exact point_value V c t j

/-- An index of the output array is in point t's block iff each coordinate is in the block's range on its axis. -/
theorem mem_out_block (t : Fin cfg0.N) (i : S100000x64.Idx) :
    i ∈ ((cfg0.win 5).blk t).view.set
      ↔ ∀ a : Fin 2, win0_5.index t a * S4000x64.size a ≤ (i a).val ∧ (i a).val < win0_5.index t a * S4000x64.size a + S4000x64.size a := by
  show i ∈ ((View.whole main_v16).slice (win0_5.rect t)).set ↔ _
  rw [View.set_slice_whole, Rect.mem_set_unit]
  exact Iff.rfl

/-- The 25 blocks of 4000 rows cover every row: row r lies in the block of point r / 4000. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 4000 < cfg0.N := by rw [points_25]; omega
  refine ⟨⟨(i 0).val / 4000, hN⟩, flush0_5 _, ?_⟩
  obtain ⟨-, -, -, -, -, -, -, -, -, -, e0, e1⟩ := block_indices ⟨(i 0).val / 4000, hN⟩
  rw [mem_out_block]
  intro a
  match a with
  | ⟨0, _⟩ =>
    show win0_5.index ⟨(i 0).val / 4000, hN⟩ (0 : Fin 2) * 4000 ≤ (i 0).val ∧ (i 0).val < win0_5.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_5.index ⟨(i 0).val / 4000, hN⟩ (1 : Fin 2) * 64 ≤ (i 1).val ∧ (i 1).val < win0_5.index ⟨(i 0).val / 4000, hN⟩ (1 : Fin 2) * 64 + 64
    rw [e1]; omega

/-- After the first pallas_call's 25 grid points the output array holds the fused first layer of the arrays the region
    found: rows 4000·t … 4000·t+3999 are written by point t, and together the points cover every row. -/
theorem final0 (c : Dev nD) :
    (dat0 (F := Ideal) V c).arrAt 5 cfg0.N
      = Cert.Spec.fused (V c main_arg0) (V c main_arg1) (V c main_v6) (V c main_v7) (V c main_v15) :=
  (dat0 (F := Ideal) V c).arrAt_eq_of_cover 5
    (Cert.Spec.fused (V c main_arg0) (V c main_arg1) (V c main_v6) (V c main_v7) (V c main_v15))
    (fun t _ => flushed_eq V c t) covered

end Cert.KernelIdeal.Region0

end
-- ==== Proof.Region1.lean ====
/-
  The second pallas_call's output array. Grid point t reads rows 4000·t … 4000·t+3999 of the hidden layer and the second
  weight matrix whole, and writes the same rows of the output: one matrix product into a zero accumulator (the narrowing
  to bf16 is the identity on extended reals). Entry (r, c) of what point t writes is the product's entry at row
  4000·t + r; the 25 blocks tile the array, so the whole array is the matrix product.
-/
import proofs.«152900_j34102040330885_1_alg».proof.Proof.Gen.KernelIdeal.Frame
import proofs.«152900_j34102040330885_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The body's arithmetic at an index: one matrix product -/

/-- The contraction's left index keeps the output's row. -/
theorem lhs_mm_0 (i : S4000x7.Idx) (q : dot_S4000x64_S64x7_S4000x7_1_0_0_1_n_n.contr.Idx) :
    (dot_S4000x64_S64x7_S4000x7_1_0_0_1_n_n.lhsIdx i q 0).val = (i 0).val := by
  unfold DotDims.lhsIdx
  rw [dif_neg (show ¬(0 : Fin S4000x64.rank) ∈ dot_S4000x64_S64x7_S4000x7_1_0_0_1_n_n.lhsBatch by decide), dif_pos (show (0 : Fin S4000x64.rank) ∈ dot_S4000x64_S64x7_S4000x7_1_0_0_1_n_n.lhsNonContracting by decide)]
  rfl
/-- The contraction's left index takes the summation index as its column. -/
theorem lhs_mm_1 (i : S4000x7.Idx) (q : dot_S4000x64_S64x7_S4000x7_1_0_0_1_n_n.contr.Idx) :
    (dot_S4000x64_S64x7_S4000x7_1_0_0_1_n_n.lhsIdx i q 1).val = (q ⟨0, by decide⟩).val :=
  dot_S4000x64_S64x7_S4000x7_1_0_0_1_n_n.lhsIdx_val_of_single rfl i q
/-- The contraction's right index takes the summation index as its row. -/
theorem rhs_mm_0 (i : S4000x7.Idx) (q : dot_S4000x64_S64x7_S4000x7_1_0_0_1_n_n.contr.Idx) :
    (dot_S4000x64_S64x7_S4000x7_1_0_0_1_n_n.rhsIdx i q 0).val = (q ⟨0, by decide⟩).val :=
  dot_S4000x64_S64x7_S4000x7_1_0_0_1_n_n.rhsIdx_val_of_single rfl i q
/-- The contraction's right index keeps the output's column. -/
theorem rhs_mm_1 (i : S4000x7.Idx) (q : dot_S4000x64_S64x7_S4000x7_1_0_0_1_n_n.contr.Idx) :
    (dot_S4000x64_S64x7_S4000x7_1_0_0_1_n_n.rhsIdx i q 1).val = (i 1).val := by
  unfold DotDims.rhsIdx
  rw [dif_neg (show ¬(1 : Fin S64x7.rank) ∈ dot_S4000x64_S64x7_S4000x7_1_0_0_1_n_n.rhsBatch by decide), dif_pos (show (1 : Fin S64x7.rank) ∈ dot_S4000x64_S64x7_S4000x7_1_0_0_1_n_n.rhsNonContracting by decide)]
  rfl

/-- The product of a block of rows with the weight matrix, into a zero accumulator, entry by entry: the sum over the
    shared axis. -/
theorem matmul_zero_apply (a : FVec Ideal S4000x64 .bf16) (b : FVec Ideal S64x7 .bf16) (p : Fin 4000) (q : Fin 7) :
    FloatOps.matmul dot_S4000x64_S64x7_S4000x7_1_0_0_1_n_n none a b (constant (F := Ideal) S4000x7 .f32 0x00000000#32) (ix2 p q)
      = ∑ k : Fin 64, a (ix2 p k) * b (ix2 k q) := by
  rw [Ideal.matmul_constant_zero_apply, ← Equiv.sum_comp (ValueIdx.contrEquiv1 dot_S4000x64_S64x7_S4000x7_1_0_0_1_n_n 64 rfl rfl).symm]
  refine Finset.sum_congr rfl fun k _ => ?_
  have hk := ValueIdx.contrEquiv1_symm_val dot_S4000x64_S64x7_S4000x7_1_0_0_1_n_n 64 rfl rfl k
  have el : dot_S4000x64_S64x7_S4000x7_1_0_0_1_n_n.lhsIdx (ix2 p q) ((ValueIdx.contrEquiv1 dot_S4000x64_S64x7_S4000x7_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S4000x64_S64x7_S4000x7_1_0_0_1_n_n.rhsIdx (ix2 p q) ((ValueIdx.contrEquiv1 dot_S4000x64_S64x7_S4000x7_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-- The body's payload at an index: the casts to the narrower type and the cast to the same shape are the identity on
    the extended reals, so what is stored is the matrix product of the two loaded blocks. -/
theorem pay_apply (x0 : Vec Ideal S4000x64 .f32) (x1 : Vec Ideal S64x7 .f32) (p : Fin 4000) (q : Fin 7) :
    k1_pay1 x0 x1 (ix2 p q) = ∑ k : Fin 64, x0 (ix2 p k) * x1 (ix2 k q) := by
  unfold k1_pay1
  refine (matmul_zero_apply _ _ p q).trans ?_
  refine Finset.sum_congr rfl fun k _ => ?_
  rw [truncf_apply, truncf_apply, shapeCast_self]

/-! ## The blocks the body reads and writes, as rectangles of the arrays -/

theorem zero_offsets : (![0, 0] : Fin 2 → Nat) = fun _ => 0 := funext fun a => by
  match a with
  | ⟨0, _⟩ => rfl
  | ⟨1, _⟩ => rfl

/-- The windows' index maps, decided over the 25 grid points: point `t` takes row block `t` of the hidden layer and of
    the output, and the whole weight matrix. -/
theorem block_indices : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = 0 ∧ win1_1.index t (1 : Fin 2) = 0 :=
  (by decide +kernel : ∀ t : Fin grid1.N, _)

/-- The hidden layer's block at point `t` is its rows `4000·t … 4000·t + 3999`. -/
theorem hidden_block (c : Dev nD) (t : Fin cfg1.N) (p : Fin 4000) (k : Fin 64) (r : Fin 100000)
    (hr : r.val = t.val * 4000 + p.val) :
    (iblk1 V c 0 t : Vec Ideal S4000x64 .f32) (ix2 p k) = (V c main_v61 : S100000x64.Idx → EReal) (ix2 r k) := by
  obtain ⟨-, -, e0, e1, -, -⟩ := block_indices t
  unfold iblk1
  rw [View.read_apply]
  show V c main_v61 _ = V c main_v61 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 64 + 1 * k.val = k.val; rw [e1]; omega

/-- The weight matrix's block at every point is the whole matrix. -/
theorem weight_block (c : Dev nD) (t : Fin cfg1.N) (k : Fin 64) (q : Fin 7) :
    (iblk1 V c 1 t : Vec Ideal S64x7 .f32) (ix2 k q) = (V c main_arg9 : S64x7.Idx → EReal) (ix2 k q) := by
  obtain ⟨-, -, -, -, e0, e1⟩ := block_indices t
  unfold iblk1
  rw [View.read_apply]
  show V c main_arg9 _ = V c main_arg9 _
  congr 1
  funext a
  apply Fin.ext
  match a with
  | ⟨0, _⟩ => show win1_1.index t (0 : Fin 2) * 64 + 1 * k.val = k.val; rw [e0]; omega
  | ⟨1, _⟩ => show win1_1.index t (1 : Fin 2) * 7 + 1 * q.val = q.val; rw [e1]; omega

/-- The matrix product at an index whose row and column are known. -/
theorem mm_at (a : S100000x64.Idx → EReal) (b : S64x7.Idx → EReal) (i : S100000x7.Idx) (r : Fin 100000) (q : Fin 7)
    (h0 : (i 0).val = r.val) (h1 : (i 1).val = q.val) :
    Cert.Spec.mm a b i = ∑ k : Fin 64, a (ix2 r k) * b (ix2 k q) := by
  have er : Cert.Spec.row i = r := Fin.ext h0
  have eq : Cert.Spec.col i = q := Fin.ext h1
  unfold Cert.Spec.mm
  rw [er, eq]

/-- What point `t` writes back is block `t` of the matrix product of the two arrays as the region found them. -/
theorem flushed_eq (c : Dev nD) (t : Fin cfg1.N) :
    (dat1 (F := Ideal) V c).flushed 2 t
      = ((cfg1.win 2).blk t).view.read (Elt Ideal) (Cert.Spec.mm (V c main_v61) (V c main_arg9)) := by
  show (cfg1.win 2).cut (grid1.coords t) ((dat1 (F := Ideal) V c).after 2 t) = _
  rw [after1_2]
  unfold out1_2
  rw [View.canon_unit_zero zero_offsets]
  simp only [View.ld_unit_zero (S := S4000x64) zero_offsets, View.ld_unit_zero (S := S64x7) zero_offsets]
  obtain ⟨e0, e1, -, -, -, -⟩ := block_indices t
  funext j
  obtain ⟨p, q, rfl⟩ : ∃ (p : Fin 4000) (q : Fin 7), j = ix2 p q := ⟨j 0, j 1, eq_ix2 j⟩
  have hN : cfg1.N = 25 := rfl
  have hr : t.val * 4000 + p.val < 100000 := by have := t.isLt; have := p.isLt; omega
  refine (pay_apply (iblk1 V c 0 t) (iblk1 V c 1 t) p q).trans ?_
  refine Eq.trans ?_ (mm_at (V c main_v61) (V c main_arg9) (((cfg1.win 2).blk t).view.emb (ix2 p q))
    ⟨t.val * 4000 + p.val, hr⟩ q ?_ ?_).symm
  · refine Finset.sum_congr rfl fun k _ => ?_
    rw [hidden_block V c t p k ⟨t.val * 4000 + p.val, hr⟩ rfl, weight_block V c t k q]
  · show win1_2.index t (0 : Fin 2) * 4000 + 1 * p.val = t.val * 4000 + p.val
    rw [e0]; omega
  · show win1_2.index t (1 : Fin 2) * 7 + 1 * q.val = q.val
    rw [e1]; omega

/-! ## From the blocks to the array -/

/-- An index of the output array is in point `t`'s block iff each coordinate is in the block's range on its axis. -/
theorem mem_block (t : Fin cfg1.N) (i : S100000x7.Idx) :
    i ∈ ((cfg1.win 2).blk t).view.set ↔ ∀ a : Fin 2, win1_2.index t a * S4000x7.size a ≤ (i a).val
      ∧ (i a).val < win1_2.index t a * S4000x7.size a + S4000x7.size a := by
  show i ∈ ((View.whole main_v62).slice (win1_2.rect t)).set ↔ _
  rw [View.set_slice_whole, Rect.mem_set_unit]
  exact Iff.rfl

/-- Every index of the output array is in some point's block: row `r` is written by point `r / 4000`, the 25 blocks of
    4000 rows filling the 100000 rows. -/
theorem covered (i : S100000x7.Idx) :
    ∃ t : Fin cfg1.N, (cfg1.win 2).flush t = true ∧ i ∈ ((cfg1.win 2).blk t).view.set := by
  have hi0 : (i 0).val < 100000 := (i 0).isLt
  have hi1 : (i 1).val < 7 := (i 1).isLt
  have hN : cfg1.N = 25 := rfl
  obtain ⟨t, ht⟩ : ∃ t : Fin cfg1.N, t.val = (i 0).val / 4000 := ⟨⟨(i 0).val / 4000, by omega⟩, rfl⟩
  obtain ⟨e0, e1, -, -, -, -⟩ := block_indices t
  refine ⟨t, flush1_2 t, ?_⟩
  rw [mem_block]
  intro a
  match a with
  | ⟨0, _⟩ =>
    show win1_2.index t (0 : Fin 2) * 4000 ≤ (i 0).val ∧ (i 0).val < win1_2.index t (0 : Fin 2) * 4000 + 4000
    rw [e0, ht]; omega
  | ⟨1, _⟩ =>
    show win1_2.index t (1 : Fin 2) * 7 ≤ (i 1).val ∧ (i 1).val < win1_2.index t (1 : Fin 2) * 7 + 7
    rw [e1]; omega

/-- After the second pallas_call's 25 grid points the output array holds the matrix product of the hidden layer and the
    second weight matrix, as the region found them: rows 4000·t … 4000·t+3999 are written by point t. -/
theorem final1 (c : Dev nD) :
    (dat1 (F := Ideal) V c).arrAt 2 cfg1.N = Cert.Spec.mm (V c main_v61) (V c main_arg9) := by
  exact (dat1 (F := Ideal) V c).arrAt_eq_of_cover 2 (Cert.Spec.mm (V c main_v61) (V c main_arg9))
    (fun t _ => flushed_eq V c t) covered

end Cert.KernelIdeal.Region1

end
-- ==== Proof.RefValue.lean ====
/-
  The reference's result, read as the shared graph-convolution functions applied to its own first linear map.
-/
import proofs.«152900_j34102040330885_1_alg».proof.Proof.Gen.ReferenceIdeal.Run
import proofs.«152900_j34102040330885_1_alg».proof.Proof.Chains

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

set_option maxRecDepth 8192 in
/-- The reference's composed term is: first linear map, first convolution and rectifier, second linear map, second
    convolution — each the shared function of Proof/Chains.lean (the term unfolds to exactly this composition). -/
theorem res_eq (c : Dev nD) :
    Cert.ReferenceIdeal.Value.res_main_v103 (F := Ideal) m c
      = Cert.Chains.out (m ((c.tc : Thread nD τ).loc main_arg2))
          (Cert.Chains.lin2
            (Cert.Chains.hidden (m ((c.tc : Thread nD τ).loc main_arg2))
              (Cert.Chains.refLin1 (m ((c.tc : Thread nD τ).loc main_arg0)) (m ((c.tc : Thread nD τ).loc main_arg1))
                (m ((c.tc : Thread nD τ).loc main_arg3)) (m ((c.tc : Thread nD τ).loc main_arg4))
                (m ((c.tc : Thread nD τ).loc main_arg5)) (m ((c.tc : Thread nD τ).loc main_arg6))
                (m ((c.tc : Thread nD τ).loc main_arg7)))
              (m ((c.tc : Thread nD τ).loc main_arg8)))
            (m ((c.tc : Thread nD τ).loc main_arg9)))
          (m ((c.tc : Thread nD τ).loc main_arg10)) := by
  unfold Cert.ReferenceIdeal.Value.res_main_v103 Cert.Chains.out Cert.Chains.lin2 Cert.Chains.hidden Cert.Chains.refLin1
    Cert.Chains.relu Cert.Chains.agg7 Cert.Chains.agg64 Cert.Chains.coef Cert.Chains.dinv2 Cert.Chains.dinv Cert.Chains.wrap
    Cert.Chains.srcRow Cert.Chains.dstRow
  with_reducible rfl

end Cert.ReferenceIdeal.RefValue

end
-- ==== Proof.SpecLaw.lean ====
/-
  The law that joins the two first layers: with real entries, multiplying the concatenated projections by `w1` is the
  same as projecting with the pre-multiplied weights,
    ∑ₖ (∑ₗ x(r,l)·wf(l,k) + bf(k)) · w1(k,c) = ∑ₗ x(r,l) · (∑ₖ wf(l,k)·w1(k,c)) + ∑ₖ bf(k)·w1(k,c),
  once for the upper half of `w1`'s rows (the feature projection) and once for the lower half (the text projection).
  It moves a factor across a sum, which is where the entries must be real numbers and not infinities.
-/
import proofs.«152900_j34102040330885_1_alg».proof.Proof.Spec

noncomputable section

open scoped BigOperators

namespace Cert.Spec

open Idealize.ShloMosaic Idealize.ShloMosaic.ValueIdx

/-- Row `k` of the upper half of a 128-row matrix. -/
abbrev lo (k : Fin 64) : Fin 128 := ⟨k.val, by have := k.isLt; omega⟩
/-- Row `k` of the lower half of a 128-row matrix. -/
abbrev hi (k : Fin 64) : Fin 128 := ⟨64 + k.val, by have := k.isLt; omega⟩

/-- The upper 64 rows of `w1`. -/
def topS (w1 : (⟨2, ![128, 64]⟩ : Shape).Idx → EReal) : (⟨2, ![64, 64]⟩ : Shape).Idx → EReal :=
  fun j => w1 (ix2 (lo (row j)) (col j))
/-- The lower 64 rows of `w1`. -/
def botS (w1 : (⟨2, ![128, 64]⟩ : Shape).Idx → EReal) : (⟨2, ![64, 64]⟩ : Shape).Idx → EReal :=
  fun j => w1 (ix2 (hi (row j)) (col j))
/-- The two bias vectors pushed through their halves of `w1`, added: one row. -/
def biasS (bf bt : (⟨1, ![64]⟩ : Shape).Idx → EReal) (w1 : (⟨2, ![128, 64]⟩ : Shape).Idx → EReal) :
    (⟨2, ![1, 64]⟩ : Shape).Idx → EReal :=
  fun j => (∑ k : Fin 64, bf (ix1 k) * w1 (ix2 (lo k) (col j))) + (∑ k : Fin 64, bt (ix1 k) * w1 (ix2 (hi k) (col j)))
/-- The reference's first linear map with the sum over `w1`'s 128 rows split in its two halves. -/
def splitLin1 (x : (⟨2, ![100000, 500]⟩ : Shape).Idx → EReal) (t : (⟨2, ![100000, 384]⟩ : Shape).Idx → EReal)
    (wf : (⟨2, ![500, 64]⟩ : Shape).Idx → EReal) (bf : (⟨1, ![64]⟩ : Shape).Idx → EReal)
    (wt : (⟨2, ![384, 64]⟩ : Shape).Idx → EReal) (bt : (⟨1, ![64]⟩ : Shape).Idx → EReal)
    (w1 : (⟨2, ![128, 64]⟩ : Shape).Idx → EReal) : (⟨2, ![100000, 64]⟩ : Shape).Idx → EReal :=
  fun i => (∑ k : Fin 64, (mm x wf (ix2 (row i) k) + bf (ix1 k)) * w1 (ix2 (lo k) (col i)))
    + (∑ k : Fin 64, (mm t wt (ix2 (row i) k) + bt (ix1 k)) * w1 (ix2 (hi k) (col i)))

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One half of the law over the reals: a factor `v k` moves across the inner sum, and the order of the two sums
    is exchanged. -/
theorem half_law_real {K L : Type} [Fintype K] [Fintype L] (a : L → ℝ) (W : L → K → ℝ) (b v : K → ℝ) :
    ∑ k, ((∑ l, a l * W l k) + b k) * v k = (∑ l, a l * ∑ k, W l k * v k) + ∑ k, b k * v k := by
  simp only [add_mul, Finset.sum_add_distrib, Finset.sum_mul, Finset.mul_sum]
  rw [Finset.sum_comm]
  congr 1
  exact Finset.sum_congr rfl fun l _ => Finset.sum_congr rfl fun k _ => by ring

/-- The same half over the extended reals, for families all of whose members are real numbers. -/
theorem half_law {K L : Type} [Fintype K] [Fintype L] (a : L → EReal) (W : L → K → EReal) (b v : K → EReal)
    (ha : ∀ l, ∃ r : ℝ, a l = (r : EReal)) (hW : ∀ l k, ∃ r : ℝ, W l k = (r : EReal))
    (hb : ∀ k, ∃ r : ℝ, b k = (r : EReal)) (hv : ∀ k, ∃ r : ℝ, v k = (r : EReal)) :
    ∑ k, ((∑ l, a l * W l k) + b k) * v k = (∑ l, a l * ∑ k, W l k * v k) + ∑ k, b k * v k := by
  choose a' ha using ha
  choose W' hW using hW
  choose b' hb using hb
  choose v' hv using hv
  simp only [ha, hW, hb, hv, ← EReal.coe_mul, ← coe_sum, ← EReal.coe_add]
  exact congrArg _ (half_law_real a' W' b' v')

/-- With real entries the split first linear map is the fused one over the pre-multiplied weights and bias. -/
theorem fold_law (x : (⟨2, ![100000, 500]⟩ : Shape).Idx → EReal) (t : (⟨2, ![100000, 384]⟩ : Shape).Idx → EReal)
    (wf : (⟨2, ![500, 64]⟩ : Shape).Idx → EReal) (bf : (⟨1, ![64]⟩ : Shape).Idx → EReal)
    (wt : (⟨2, ![384, 64]⟩ : Shape).Idx → EReal) (bt : (⟨1, ![64]⟩ : Shape).Idx → EReal)
    (w1 : (⟨2, ![128, 64]⟩ : Shape).Idx → EReal)
    (hx : IsReal x) (ht : IsReal t) (hwf : IsReal wf) (hbf : IsReal bf) (hwt : IsReal wt) (hbt : IsReal bt) (hw1 : IsReal w1) :
    splitLin1 x t wf bf wt bt w1 = fused x t (mm wf (topS w1)) (mm wt (botS w1)) (biasS bf bt w1) := by
  funext i
  have h1 := half_law (fun l : Fin 500 => x (ix2 (row i) l)) (fun l k => wf (ix2 l k)) (fun k : Fin 64 => bf (ix1 k))
    (fun k => w1 (ix2 (lo k) (col i))) (fun l => hx _) (fun l k => hwf _) (fun k => hbf _) (fun k => hw1 _)
  have h2 := half_law (fun l : Fin 384 => t (ix2 (row i) l)) (fun l k => wt (ix2 l k)) (fun k : Fin 64 => bt (ix1 k))
    (fun k => w1 (ix2 (hi k) (col i))) (fun l => ht _) (fun l k => hwt _) (fun k => hbt _) (fun k => hw1 _)
  exact (congrArg₂ (· + ·) h1 h2).trans (add_add_add_comm _ _ _ _)

end Cert.Spec

end
-- ==== Proof.LinRef.lean ====
/-
  The linear maps of both programs read index by index: the reference's first linear map (two projections with biases,
  concatenated, times `w1`) is the sum over `w1`'s rows split in its halves; the kernel's pre-multiplied weights and
  bias are matrix products with the halves of `w1`; the second linear map is a plain matrix product.
-/
import proofs.«152900_j34102040330885_1_alg».proof.Proof.Chains
import proofs.«152900_j34102040330885_1_alg».proof.Proof.KChains
import proofs.«152900_j34102040330885_1_alg».proof.Proof.SpecLaw
import proofs.«152900_j34102040330885_1_alg».proof.Proof.Gen.ReferenceIdeal.Read
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.Lin

open Idealize.ShloMosaic Idealize.ShloMosaic.ValueIdx

/-- A sum over 128 rows is the sum over the upper 64 plus the sum over the lower 64. -/
theorem sum_halves {M : Type} [AddCommMonoid M] (f : Fin 128 → M) :
    ∑ k, f k = (∑ k : Fin 64, f (Cert.Spec.lo k)) + ∑ k : Fin 64, f (Cert.Spec.hi k) :=
  Fin.sum_univ_add (a := 64) (b := 64) f

/-- One projection with its bias, read at row `r`, column `k`: the product's sum plus the bias entry. -/
theorem proj_f_apply (x : FVec Ideal Cert.ReferenceIdeal.S100000x500 .f32) (wf : FVec Ideal Cert.ReferenceIdeal.S500x64 .f32)
    (bf : FVec Ideal Cert.ReferenceIdeal.S64 .f32) (r : Fin 100000) (k : Fin 64) :
    Cert.ReferenceIdeal.Read.val_main_v7 (F := Ideal) x wf bf (ix2 r k)
      = (∑ l : Fin 500, x (ix2 r l) * wf (ix2 l k)) + bf (ix1 k) := by
  rw [Cert.ReferenceIdeal.Read.val_main_v7_apply, Cert.ReferenceIdeal.Read.val_main_v4_apply,
    Cert.ReferenceIdeal.Read.val_main_v6_apply, Cert.ReferenceIdeal.Read.val_main_v5_apply]
  have e1 : ∀ l : Fin 500, Cert.ReferenceIdeal.Read.lidx_main_v4 (ix2 r k) l = ix2 r l := fun l =>
    funext fun a => by match a with | ⟨0, _⟩ => rfl | ⟨1, _⟩ => rfl
  have e2 : ∀ l : Fin 500, Cert.ReferenceIdeal.Read.ridx_main_v4 (ix2 r k) l = ix2 l k := fun l =>
    funext fun a => by match a with | ⟨0, _⟩ => rfl | ⟨1, _⟩ => rfl
  have e3 : Cert.ReferenceIdeal.Read.idx_main_v5 (Cert.ReferenceIdeal.Read.idx_main_v6 (ix2 r k)) = ix1 k :=
    funext fun a => by match a with | ⟨0, _⟩ => rfl
  simp only [e1, e2, e3]
  rfl

/-- The other projection with its bias, read at row `r`, column `k`. -/
theorem proj_t_apply (t : FVec Ideal Cert.ReferenceIdeal.S100000x384 .f32) (wt : FVec Ideal Cert.ReferenceIdeal.S384x64 .f32)
    (bt : FVec Ideal Cert.ReferenceIdeal.S64 .f32) (r : Fin 100000) (k : Fin 64) :
    Cert.ReferenceIdeal.Read.val_main_v11 (F := Ideal) t wt bt (ix2 r k)
      = (∑ l : Fin 384, t (ix2 r l) * wt (ix2 l k)) + bt (ix1 k) := by
  rw [Cert.ReferenceIdeal.Read.val_main_v11_apply, Cert.ReferenceIdeal.Read.val_main_v8_apply,
    Cert.ReferenceIdeal.Read.val_main_v10_apply, Cert.ReferenceIdeal.Read.val_main_v9_apply]
  have e1 : ∀ l : Fin 384, Cert.ReferenceIdeal.Read.lidx_main_v8 (ix2 r k) l = ix2 r l := fun l =>
    funext fun a => by match a with | ⟨0, _⟩ => rfl | ⟨1, _⟩ => rfl
  have e2 : ∀ l : Fin 384, Cert.ReferenceIdeal.Read.ridx_main_v8 (ix2 r k) l = ix2 l k := fun l =>
    funext fun a => by match a with | ⟨0, _⟩ => rfl | ⟨1, _⟩ => rfl
  have e3 : Cert.ReferenceIdeal.Read.idx_main_v9 (Cert.ReferenceIdeal.Read.idx_main_v10 (ix2 r k)) = ix1 k :=
    funext fun a => by match a with | ⟨0, _⟩ => rfl
  simp only [e1, e2, e3]
  rfl

/-- The two projections side by side, read at a column of the left half: the first projection there. -/
theorem cat_left (x : FVec Ideal Cert.ReferenceIdeal.S100000x500 .f32) (t : FVec Ideal Cert.ReferenceIdeal.S100000x384 .f32)
    (wf : FVec Ideal Cert.ReferenceIdeal.S500x64 .f32) (bf : FVec Ideal Cert.ReferenceIdeal.S64 .f32)
    (wt : FVec Ideal Cert.ReferenceIdeal.S384x64 .f32) (bt : FVec Ideal Cert.ReferenceIdeal.S64 .f32)
    (i : Cert.ReferenceIdeal.S100000x64.Idx) (k : Fin 64) :
    Cert.ReferenceIdeal.Read.val_main_v12 (F := Ideal) x t wf bf wt bt (Cert.ReferenceIdeal.Read.lidx_main_v13 i (Cert.Spec.lo k))
      = Cert.ReferenceIdeal.Read.val_main_v7 (F := Ideal) x wf bf (ix2 (Cert.Spec.row i) k) := by
  unfold Cert.ReferenceIdeal.Read.val_main_v12
  refine concatenate_pair_apply_left (s₁ := Cert.ReferenceIdeal.S100000x64) (s₂ := Cert.ReferenceIdeal.S100000x64) 1 _ _ _ (Cert.ReferenceIdeal.Read.lidx_main_v13 i (Cert.Spec.lo k)) rfl
    (ix2 (Cert.Spec.row i) k) ?_
  intro b
  match b with
  | ⟨0, _⟩ => rfl
  | ⟨1, _⟩ => rfl

/-- The two projections side by side, read at a column of the right half: the second projection at the column less 64. -/
theorem cat_right (x : FVec Ideal Cert.ReferenceIdeal.S100000x500 .f32) (t : FVec Ideal Cert.ReferenceIdeal.S100000x384 .f32)
    (wf : FVec Ideal Cert.ReferenceIdeal.S500x64 .f32) (bf : FVec Ideal Cert.ReferenceIdeal.S64 .f32)
    (wt : FVec Ideal Cert.ReferenceIdeal.S384x64 .f32) (bt : FVec Ideal Cert.ReferenceIdeal.S64 .f32)
    (i : Cert.ReferenceIdeal.S100000x64.Idx) (k : Fin 64) :
    Cert.ReferenceIdeal.Read.val_main_v12 (F := Ideal) x t wf bf wt bt (Cert.ReferenceIdeal.Read.lidx_main_v13 i (Cert.Spec.hi k))
      = Cert.ReferenceIdeal.Read.val_main_v11 (F := Ideal) t wt bt (ix2 (Cert.Spec.row i) k) := by
  unfold Cert.ReferenceIdeal.Read.val_main_v12
  refine concatenate_pair_apply_right (s₁ := Cert.ReferenceIdeal.S100000x64) (s₂ := Cert.ReferenceIdeal.S100000x64) 1 _ _ _ (Cert.ReferenceIdeal.Read.lidx_main_v13 i (Cert.Spec.hi k)) rfl rfl
    (ix2 (Cert.Spec.row i) k) ?_ ?_
  · intro b
    match b with
    | ⟨0, _⟩ => exact fun _ => rfl
    | ⟨1, _⟩ => exact fun h => absurd rfl h
  · show k.val + 64 = 64 + k.val
    omega

/-- The reference's first linear map, entry by entry, with the sum over the 128 concatenated columns split in halves. -/
theorem ref_split (x : FVec Ideal Cert.ReferenceIdeal.S100000x500 .f32) (t : FVec Ideal Cert.ReferenceIdeal.S100000x384 .f32)
    (wf : FVec Ideal Cert.ReferenceIdeal.S500x64 .f32) (bf : FVec Ideal Cert.ReferenceIdeal.S64 .f32)
    (wt : FVec Ideal Cert.ReferenceIdeal.S384x64 .f32) (bt : FVec Ideal Cert.ReferenceIdeal.S64 .f32)
    (w1 : FVec Ideal Cert.ReferenceIdeal.S128x64 .f32) :
    Cert.Chains.refLin1 x t wf bf wt bt w1 = Cert.Spec.splitLin1 x t wf bf wt bt w1 := by
  funext i
  show Cert.ReferenceIdeal.Read.val_main_v13 (F := Ideal) x t wf bf wt bt w1 i = _
  rw [Cert.ReferenceIdeal.Read.val_main_v13_apply, sum_halves]
  have er : ∀ k : Fin 128, Cert.ReferenceIdeal.Read.ridx_main_v13 i k = ix2 k (Cert.Spec.col i) := fun k =>
    funext fun a => by match a with | ⟨0, _⟩ => rfl | ⟨1, _⟩ => rfl
  simp only [cat_left, cat_right, proj_f_apply, proj_t_apply, er]
  rfl

end Cert.Lin

end
-- ==== Proof.LinK.lean ====
/-
  The linear maps of both programs read index by index: the reference's first linear map (two projections with biases,
  concatenated, times `w1`) is the sum over `w1`'s rows split in its halves; the kernel's pre-multiplied weights and
  bias are matrix products with the halves of `w1`; the second linear map is a plain matrix product.
-/
import proofs.«152900_j34102040330885_1_alg».proof.Proof.Chains
import proofs.«152900_j34102040330885_1_alg».proof.Proof.KChains
import proofs.«152900_j34102040330885_1_alg».proof.Proof.SpecLaw
import proofs.«152900_j34102040330885_1_alg».proof.Proof.Gen.ReferenceIdeal.Read
import Idealize.ShloMosaic.Lib.Pipeline.Value
import Idealize.ShloMosaic.Lib.ValueIdx
import Idealize.ShloMosaic.Lib.StackMember
import Idealize.ShloMosaic.PureOps.Ideal.Laws

noncomputable section

open scoped BigOperators

namespace Cert.Lin

open Idealize.ShloMosaic Idealize.ShloMosaic.ValueIdx

/-! ## The plain matrix products at an index -/

/-- A 500×64 by 64×64 product, entry by entry. -/
theorem dot_500_apply (A : FVec Ideal Cert.KernelIdeal.S500x64 .f32) (B : FVec Ideal Cert.KernelIdeal.S64x64 .f32)
    (a : Fin 500) (b : Fin 64) :
    Host.dotGeneral Cert.KernelIdeal.dot_S500x64_S64x64_S500x64_1_0_0_1_n_n none A B (ix2 a b)
      = ∑ c : Fin 64, A (ix2 a c) * B (ix2 c b) :=
  StackMember.dotGeneral_plain_apply (m := 500) (n := 64) (k := 64) none A B a b

/-- A 384×64 by 64×64 product, entry by entry. -/
theorem dot_384_apply (A : FVec Ideal Cert.KernelIdeal.S384x64 .f32) (B : FVec Ideal Cert.KernelIdeal.S64x64 .f32)
    (a : Fin 384) (b : Fin 64) :
    Host.dotGeneral Cert.KernelIdeal.dot_S384x64_S64x64_S384x64_1_0_0_1_n_n none A B (ix2 a b)
      = ∑ c : Fin 64, A (ix2 a c) * B (ix2 c b) :=
  StackMember.dotGeneral_plain_apply (m := 384) (n := 64) (k := 64) none A B a b

/-- A one-row 1×64 by 64×64 product, entry by entry. -/
theorem dot_1_apply (A : FVec Ideal Cert.KernelIdeal.S1x64 .f32) (B : FVec Ideal Cert.KernelIdeal.S64x64 .f32)
    (a : Fin 1) (b : Fin 64) :
    Host.dotGeneral Cert.KernelIdeal.dot_S1x64_S64x64_S1x64_1_0_0_1_n_n none A B (ix2 a b)
      = ∑ c : Fin 64, A (ix2 a c) * B (ix2 c b) :=
  StackMember.dotGeneral_plain_apply (m := 1) (n := 64) (k := 64) none A B a b

/-- The reference's 100000×64 by 64×7 product, entry by entry. -/
theorem dot_lin2_apply (A : FVec Ideal Cert.ReferenceIdeal.S100000x64 .f32) (B : FVec Ideal Cert.ReferenceIdeal.S64x7 .f32)
    (a : Fin 100000) (b : Fin 7) :
    Host.dotGeneral Cert.ReferenceIdeal.dot_S100000x64_S64x7_S100000x7_1_0_0_1_n_n none A B (ix2 a b)
      = ∑ c : Fin 64, A (ix2 a c) * B (ix2 c b) :=
  StackMember.dotGeneral_plain_apply (m := 100000) (n := 7) (k := 64) none A B a b

/-! ## The halves of `w1` and the bias row at an index -/

/-- Row `k` of the upper half is row `k` of `w1`. -/
theorem top_apply (w1 : FVec Ideal Cert.KernelIdeal.S128x64 .f32) (k b : Fin 64) :
    Cert.KChains.top w1 (ix2 k b) = w1 (ix2 (Cert.Spec.lo k) b) := by
  unfold Cert.KChains.top
  exact extractStridedSlice_apply ![0, 0] w1 _ (ix2 k b) (ix2 (Cert.Spec.lo k) b) (fun a => match a with
    | ⟨0, _⟩ => by show k.val = 0 + k.val; omega
    | ⟨1, _⟩ => by show b.val = 0 + b.val; omega)

/-- Row `k` of the lower half is row `64 + k` of `w1`. -/
theorem bot_apply (w1 : FVec Ideal Cert.KernelIdeal.S128x64 .f32) (k b : Fin 64) :
    Cert.KChains.bot w1 (ix2 k b) = w1 (ix2 (Cert.Spec.hi k) b) := by
  unfold Cert.KChains.bot
  exact extractStridedSlice_apply ![64, 0] w1 _ (ix2 k b) (ix2 (Cert.Spec.hi k) b) (fun a => match a with
    | ⟨0, _⟩ => by show 64 + k.val = 64 + k.val; rfl
    | ⟨1, _⟩ => by show b.val = 0 + b.val; omega)

/-- A vector of 64 entries made a row: the row's entry in column `c` is the vector's entry `c`. -/
theorem row_apply (v : FVec Ideal Cert.KernelIdeal.S64 .f32) (z : Fin 1) (c : Fin 64) :
    broadcastInDim Cert.KernelIdeal.S1x64 ![1] Cert.KernelIdeal.Facts₀.bcast_S64_S1x64_1 v (ix2 z c) = v (ix1 c) :=
  broadcastInDim_apply _ Cert.KernelIdeal.Facts₀.bcast_S64_S1x64_1 v (ix2 z c) (ix1 c) (fun a => match a with
    | ⟨0, _⟩ => by show c.val = if (64 : Nat) = 1 then 0 else c.val; rw [if_neg (by decide)])

/-- A one-row matrix read as a vector: entry `b` is the row's entry in column `b`. -/
theorem unrow_apply (x : FVec Ideal Cert.KernelIdeal.S1x64 .f32) (b : Fin 64) :
    shapeCast Cert.KernelIdeal.S64 x Cert.KernelIdeal.Facts₀.shapeCasts_S1x64_S64 (ix1 b) = x (ix2 (0 : Fin 1) b) :=
  shapeCast_apply x Cert.KernelIdeal.Facts₀.shapeCasts_S1x64_S64 (ix1 b) (ix2 (0 : Fin 1) b)
    (by rewrite [Shape.rowMajor_val_two, Shape.rowMajor_val_one]; show 0 * 64 + b.val = b.val; omega)

/-- A vector read as a one-row matrix: the entry in column `b` is the vector's entry `b`. -/
theorem asrow_apply (x : FVec Ideal Cert.KernelIdeal.S64 .f32) (z : Fin 1) (b : Fin 64) :
    shapeCast Cert.KernelIdeal.S1x64 x Cert.KernelIdeal.Facts₀.shapeCasts_S64_S1x64 (ix2 z b) = x (ix1 b) :=
  shapeCast_apply x Cert.KernelIdeal.Facts₀.shapeCasts_S64_S1x64 (ix2 z b) (ix1 b)
    (by rewrite [Shape.rowMajor_val_two, Shape.rowMajor_val_one]; have hz : z.val < 1 := z.isLt
        show b.val = z.val * 64 + b.val; omega)

/-- The kernel's pre-multiplied feature weights are the product with the upper half of `w1`. -/
theorem Wa_eq (wf : FVec Ideal Cert.KernelIdeal.S500x64 .f32) (w1 : FVec Ideal Cert.KernelIdeal.S128x64 .f32) :
    Cert.KChains.Wa wf w1 = Cert.Spec.mm wf (Cert.Spec.topS w1) := by
  funext j
  obtain ⟨a, b, rfl⟩ : ∃ (a : Fin 500) (b : Fin 64), j = ix2 a b := ⟨j 0, j 1, eq_ix2 j⟩
  unfold Cert.KChains.Wa
  refine (dot_500_apply wf (Cert.KChains.top w1) a b).trans ?_
  show _ = ∑ l : Fin 64, wf (ix2 a l) * Cert.Spec.topS w1 (ix2 l b)
  refine Finset.sum_congr rfl fun l _ => ?_
  rw [top_apply]
  rfl

/-- The kernel's pre-multiplied text weights are the product with the lower half of `w1`. -/
theorem Wb_eq (wt : FVec Ideal Cert.KernelIdeal.S384x64 .f32) (w1 : FVec Ideal Cert.KernelIdeal.S128x64 .f32) :
    Cert.KChains.Wb wt w1 = Cert.Spec.mm wt (Cert.Spec.botS w1) := by
  funext j
  obtain ⟨a, b, rfl⟩ : ∃ (a : Fin 384) (b : Fin 64), j = ix2 a b := ⟨j 0, j 1, eq_ix2 j⟩
  unfold Cert.KChains.Wb
  refine (dot_384_apply wt (Cert.KChains.bot w1) a b).trans ?_
  show _ = ∑ l : Fin 64, wt (ix2 a l) * Cert.Spec.botS w1 (ix2 l b)
  refine Finset.sum_congr rfl fun l _ => ?_
  rw [bot_apply]
  rfl

/-- The kernel's pre-multiplied bias row. -/
theorem bias_eq (bf bt : FVec Ideal Cert.KernelIdeal.S64 .f32) (w1 : FVec Ideal Cert.KernelIdeal.S128x64 .f32) :
    Cert.KChains.bias bf bt w1 = Cert.Spec.biasS bf bt w1 := by
  funext j
  obtain ⟨z, b, rfl⟩ : ∃ (z : Fin 1) (b : Fin 64), j = ix2 z b := ⟨j 0, j 1, eq_ix2 j⟩
  unfold Cert.KChains.bias
  rw [asrow_apply, addf_apply, unrow_apply, unrow_apply, dot_1_apply, dot_1_apply]
  show _ = (∑ k : Fin 64, bf (ix1 k) * w1 (ix2 (Cert.Spec.lo k) b)) + (∑ k : Fin 64, bt (ix1 k) * w1 (ix2 (Cert.Spec.hi k) b))
  congr 1
  · refine Finset.sum_congr rfl fun k _ => ?_
    rw [row_apply, top_apply]
  · refine Finset.sum_congr rfl fun k _ => ?_
    rw [row_apply, bot_apply]

/-- The second linear map is the plain matrix product. -/
theorem lin2_eq (h : FVec Ideal Cert.ReferenceIdeal.S100000x64 .f32) (w2 : FVec Ideal Cert.ReferenceIdeal.S64x7 .f32) :
    Cert.Chains.lin2 h w2 = Cert.Spec.mm h w2 := by
  funext j
  obtain ⟨a, b, rfl⟩ : ∃ (a : Fin 100000) (b : Fin 7), j = ix2 a b := ⟨j 0, j 1, eq_ix2 j⟩
  unfold Cert.Chains.lin2
  exact dot_lin2_apply h w2 a b

end Cert.Lin

end
-- ==== Proof.Finite.lean ====
/-
  The precondition read at the extended reals. It is the conjunction, over the ten float arguments, of "every entry's
  absolute value is below +∞"; an extended real whose absolute value is below +∞ is a real number. So each float
  argument the first-layer law needs has real entries.
-/
import proofs.«152900_j34102040330885_1_alg».proof.Pre_finite_inputs
import proofs.«152900_j34102040330885_1_alg».proof.Proof.Spec
import Idealize.ShloMosaic.Lib.ReduceAll
import Idealize.ShloMosaic.Lib.ValueIdx

noncomputable section

namespace Cert.Finite

open Idealize.ShloMosaic Idealize.ShloMosaic.ValueIdx Cert.Pre_finite_inputs

/-- The shape with no axes has exactly one index. -/
instance subsingleton_scalar_idx : Subsingleton S_.Idx := ⟨fun a b => funext fun d => d.elim0⟩

/-- The pattern `0x7F800000` denotes `+∞`. -/
theorem inf_bits : Ideal.ofBits .f32 0x7F800000#32 = (⊤ : EReal) := by
  simp [Ideal.ofBits, Ideal.ieee]

/-- A truth value whose word is 1 is true. -/
theorem ofBool_one {b : Bool} (h : BitVec.ofBool b = 1#1) : b = true := by
  revert h; cases b <;> decide

/-- An extended real whose absolute value `max x (-x)` lies strictly below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One argument's conjunct: if "`|x| < +∞` at every entry", reduced by `and` over all axes, is 1, then every entry of
    `x` is a real number. -/
theorem isReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
          (cmpf .olt (Host.absf x) (broadcastInDim S ![] hb (constant (F := Ideal) S_ .f32 0x7F800000#32)))
          (constantI S_ 1 1#1) hr hu ix0 = 1#1) :
    Cert.Spec.IsReal x := by
  intro i
  have hi := Host.reduce_andi_all _ _ hr hu ix0 e i
  have h2 : BitVec.ofBool (decide (max (x i) (-(x i)) < Ideal.ofBits .f32 0x7F800000#32)) = 1#1 := hi
  rw [inf_bits] at h2
  exact real_of_abs_lt_top _ (of_decide_eq_true (ofBool_one h2))

/-- A conjunction of two truth values that is 1 has both conjuncts 1. -/
theorem andi_split {p q : IVec S_ 1} (h : andi p q ix0 = 1#1) : p ix0 = 1#1 ∧ q ix0 = 1#1 :=
  IntOp.andi_eq_one.1 h

/-- The precondition "every float input is finite", read at the extended reals: each float argument's entries are real
    numbers. (The integer argument is not constrained.) -/
theorem of_pre [Cert.Pre_finite_inputs.Facts]
    (x0 : FVec Ideal S100000x500 .f32) (x1 : FVec Ideal S100000x384 .f32) (x2 : IVec S2x1280000 32)
    (x3 : FVec Ideal S500x64 .f32) (x4 : FVec Ideal S64 .f32) (x5 : FVec Ideal S384x64 .f32) (x6 : FVec Ideal S64 .f32)
    (x7 : FVec Ideal S128x64 .f32) (x8 : FVec Ideal S64 .f32) (x9 : FVec Ideal S64x7 .f32) (x10 : FVec Ideal S7 .f32)
    (h : Cert.Pre_finite_inputs.fn (F := Ideal) x0 x1 x2 x3 x4 x5 x6 x7 x8 x9 x10 = fun _ => 1#1) :
    Cert.Spec.IsReal x0 ∧ Cert.Spec.IsReal x1 ∧ Cert.Spec.IsReal x3 ∧ Cert.Spec.IsReal x4 ∧ Cert.Spec.IsReal x5
      ∧ Cert.Spec.IsReal x6 ∧ Cert.Spec.IsReal x7 := by
  have h0 := congrFun h ix0
  unfold Cert.Pre_finite_inputs.fn Cert.Pre_finite_inputs.fn_part1 Cert.Pre_finite_inputs.fn_part2 at h0
  dsimp only at h0
  -- the conjunction is nested to the left: the last three conjuncts (arguments 10, 9, 8) are not needed
  obtain ⟨h0, -⟩ := andi_split h0
  obtain ⟨h0, -⟩ := andi_split h0
  obtain ⟨h0, -⟩ := andi_split h0
  obtain ⟨h0, e7⟩ := andi_split h0
  obtain ⟨h0, e6⟩ := andi_split h0
  obtain ⟨h0, e5⟩ := andi_split h0
  obtain ⟨h0, e4⟩ := andi_split h0
  obtain ⟨h0, e3⟩ := andi_split h0
  obtain ⟨e0, e1⟩ := andi_split h0
  exact ⟨isReal_of_all x0 _ _ _ e0, isReal_of_all x1 _ _ _ e1, isReal_of_all x3 _ _ _ e3, isReal_of_all x4 _ _ _ e4,
    isReal_of_all x5 _ _ _ e5, isReal_of_all x6 _ _ _ e6, isReal_of_all x7 _ _ _ e7⟩

end Cert.Finite

end
-- ==== Proof.Bridge.lean ====
/-
  The two runs side by side. The kernel's result array is the second graph convolution of the second pallas_call's
  output, which is the plain product of the hidden layer with `w2`, the hidden layer being the first convolution and
  rectifier of the first pallas_call's output, the fused first layer over pre-multiplied weights. The reference's result
  is the same composition over its own first linear map. The two first linear maps agree entry by entry when the inputs
  are real numbers (the law of Proof/SpecLaw.lean); every later step is the same function on both sides.
-/
import proofs.«152900_j34102040330885_1_alg».proof.Defs
import proofs.«152900_j34102040330885_1_alg».proof.Proof.KernelRun
import proofs.«152900_j34102040330885_1_alg».proof.Proof.KernelHost3
import proofs.«152900_j34102040330885_1_alg».proof.Proof.Region0
import proofs.«152900_j34102040330885_1_alg».proof.Proof.Region1
import proofs.«152900_j34102040330885_1_alg».proof.Proof.RefValue
import proofs.«152900_j34102040330885_1_alg».proof.Proof.LinRef
import proofs.«152900_j34102040330885_1_alg».proof.Proof.LinK
import proofs.«152900_j34102040330885_1_alg».proof.Proof.SpecLaw
import proofs.«152900_j34102040330885_1_alg».proof.Proof.Finite
import proofs.«152900_j34102040330885_1_alg».proof.Proof.Gen.Pre_finite_inputs
import proofs.«152900_j34102040330885_1_alg».proof.Proof.Gen.ReferenceIdeal.Run

set_option maxRecDepth 16384

noncomputable section

namespace Cert.Bridge

open Idealize.ShloMosaic Idealize.ShloMosaic.TcCoe Idealize.SL.Sem

section Kernel

open Cert.KernelIdeal Cert.KernelIdeal.Gen

variable (m : (ℓ : Loc nD τ sig) → Buf (Elt Ideal) ℓ) (ρ : Dev nD → PrngReg)

/-- The kernel program's result in closed form, from the launch arguments. -/
def kernelResult (c : Dev nD) : Buf (Elt Ideal) ((c.tc : Thread nD τ).loc main_v82) :=
  Cert.Chains.out (m ((c : Thread nD τ).loc main_arg2))
    (Cert.Spec.mm
      (Cert.Chains.hidden (m ((c : Thread nD τ).loc main_arg2))
        (Cert.Spec.fused (m ((c : Thread nD τ).loc main_arg0)) (m ((c : Thread nD τ).loc main_arg1))
          (Cert.KChains.Wa (m ((c : Thread nD τ).loc main_arg3)) (m ((c : Thread nD τ).loc main_arg7)))
          (Cert.KChains.Wb (m ((c : Thread nD τ).loc main_arg5)) (m ((c : Thread nD τ).loc main_arg7)))
          (Cert.KChains.bias (m ((c : Thread nD τ).loc main_arg4)) (m ((c : Thread nD τ).loc main_arg6)) (m ((c : Thread nD τ).loc main_arg7))))
        (m ((c : Thread nD τ).loc main_arg8)))
      (m ((c : Thread nD τ).loc main_arg9)))
    (m ((c : Thread nD τ).loc main_arg10))

/-- The first pallas_call's output array, from the launch arguments. -/
theorem hw1_value (c : Dev nD) : W2 m ρ c (Proc.devRef .tc main_v16)
    = Cert.Spec.fused (m ((c : Thread nD τ).loc main_arg0)) (m ((c : Thread nD τ).loc main_arg1))
        (Cert.KChains.Wa (m ((c : Thread nD τ).loc main_arg3)) (m ((c : Thread nD τ).loc main_arg7)))
        (Cert.KChains.Wb (m ((c : Thread nD τ).loc main_arg5)) (m ((c : Thread nD τ).loc main_arg7)))
        (Cert.KChains.bias (m ((c : Thread nD τ).loc main_arg4)) (m ((c : Thread nD τ).loc main_arg6)) (m ((c : Thread nD τ).loc main_arg7))) := by
  rw [Cert.KernelIdeal.Host.W2_hw1, Cert.KernelIdeal.Region0.final0 (V1 m ρ) c]
  show Cert.Spec.fused (W1 m ρ c (Proc.devRef .tc main_arg0)) (W1 m ρ c (Proc.devRef .tc main_arg1)) (W1 m ρ c (Proc.devRef .tc main_v6))
    (W1 m ρ c (Proc.devRef .tc main_v7)) (W1 m ρ c (Proc.devRef .tc main_v15)) = _
  rw [Cert.KernelIdeal.Host.W1_arg0, Cert.KernelIdeal.Host.W1_arg1, Cert.KernelIdeal.Host.W1_Wa, Cert.KernelIdeal.Host.W1_Wb,
    Cert.KernelIdeal.Host.W1_bias]

/-- The result buffer's final contents are the closed form. -/
theorem kernel_value (c : Dev nD) : W6 m ρ c (Proc.devRef .tc main_v82) = kernelResult m c := by
  rw [Cert.KernelIdeal.Host.W6_out, Cert.KernelIdeal.Host.W5_hw2, Cert.KernelIdeal.Region1.final1 (V4 m ρ) c]
  show Cert.Chains.out _ (Cert.Spec.mm (W4 m ρ c (Proc.devRef .tc main_v61)) (W4 m ρ c (Proc.devRef .tc main_arg9))) _ = _
  rw [Cert.KernelIdeal.Host.W4_hidden, Cert.KernelIdeal.Host.W4_arg9, hw1_value]
  rfl

end Kernel

/-- The two first linear maps agree on real inputs: the reference's concatenated projections times `w1` against the
    kernel's fused layer over its pre-multiplied weights. -/
theorem lin1_eq (x : FVec Ideal Cert.ReferenceIdeal.S100000x500 .f32) (t : FVec Ideal Cert.ReferenceIdeal.S100000x384 .f32)
    (wf : FVec Ideal Cert.ReferenceIdeal.S500x64 .f32) (bf : FVec Ideal Cert.ReferenceIdeal.S64 .f32)
    (wt : FVec Ideal Cert.ReferenceIdeal.S384x64 .f32) (bt : FVec Ideal Cert.ReferenceIdeal.S64 .f32)
    (w1 : FVec Ideal Cert.ReferenceIdeal.S128x64 .f32)
    (hx : Cert.Spec.IsReal x) (ht : Cert.Spec.IsReal t) (hwf : Cert.Spec.IsReal wf) (hbf : Cert.Spec.IsReal bf)
    (hwt : Cert.Spec.IsReal wt) (hbt : Cert.Spec.IsReal bt) (hw1 : Cert.Spec.IsReal w1) :
    Cert.Chains.refLin1 x t wf bf wt bt w1
      = Cert.Spec.fused x t (Cert.KChains.Wa wf w1) (Cert.KChains.Wb wt w1) (Cert.KChains.bias bf bt w1) := by
  rw [Cert.Lin.ref_split, Cert.Spec.fold_law x t wf bf wt bt w1 hx ht hwf hbf hwt hbt hw1, Cert.Lin.Wa_eq, Cert.Lin.Wb_eq,
    Cert.Lin.bias_eq]

/-- Both idealized programs, from memories agreeing on the arguments, end with the same result array: the kernel's closed
    form. On the reference's side the composed term is rewritten to the arguments of the kernel's memory, its first
    linear map replaced by the fused layer (real inputs), its second by the plain product. -/
theorem algebraic : Cert.algebraic_KernelIdeal_ReferenceIdeal := by
  intro m ρ m' ρ' hpre hagree
  refine ⟨fun c => kernelResult m c, ?_, ?_⟩
  · exact (θ_run Cert.KernelIdeal.defs _ _).mono (fun r h c => ⟨(h c).1.trans (kernel_value m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h3, h4, h5, h6, h7⟩ := Cert.Finite.of_pre _ _ _ _ _ _ _ _ _ _ _ (hpre c)
    obtain ⟨a0, a1, a2, a3, a4, a5, a6, a7, a8, a9, a10⟩ := hagree c
    rw [Cert.ReferenceIdeal.RefValue.res_eq, a0, a1, a2, a3, a4, a5, a6, a7, a8, a9, a10]
    have e1 := lin1_eq (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) h0 h1 h3 h4 h5 h6 h7
    rw [e1, Cert.Lin.lin2_eq]
    rfl

end Cert.Bridge

end
-- ==== Proof.lean ====
/-
  A two-layer graph convolution over 100000 nodes and 1280000 edges, the kernel against its reference, over the extended
  reals.

  The reference projects the node features `x` (500 columns) and the text features `t` (384 columns) to 64 columns each
  (with biases), sets them side by side, multiplies by `w1` (128 × 64), runs a graph convolution (gather at the edge
  sources, scale by the symmetric degree normalisation, scatter-add at the destinations, add the self-loop term and the
  bias), a rectifier, multiplies by `w2` (64 × 7) and runs the same convolution again.

  The kernel multiplies the two projection matrices and biases by their halves of `w1` first, on the host, and computes
  `x · Wa + t · Wb + bias` in one pallas_call over 25 blocks of 4000 rows; it computes the degree normalisation once;
  the product with `w2` is a second pallas_call over the same 25 row blocks. Every other step is the reference's own.

  So the certificate rests on one law, `(x · wf + bf | t · wt + bt) · w1 = x · (wf · w1↑) + t · (wt · w1↓) + (bf · w1↑ + bt · w1↓)`,
  entry by entry, which moves factors across sums and therefore needs the inputs to be real numbers — the precondition —
  (Proof/SpecLaw.lean), on reading each pallas_call's output array as a matrix product block by block
  (Proof/Region0.lean, Proof/Region1.lean), and on reading both programs' host operations as the same functions of those
  values (Proof/Chains.lean, Proof/KernelHost*.lean, Proof/RefValue.lean); Proof/Bridge.lean puts the two runs side by
  side. The frames of the two kernel programs are the generated ones; the reference's frame is its generated run with the
  result dropped; the idealization rewrote nothing, so `preserves` is trivial.
-/
import proofs.«152900_j34102040330885_1_alg».proof.Defs
import proofs.«152900_j34102040330885_1_alg».proof.Proof.Gen.Kernel
import proofs.«152900_j34102040330885_1_alg».proof.Proof.Gen.Kernel.Skeleton
import proofs.«152900_j34102040330885_1_alg».proof.Proof.Gen.Kernel.Launch
import proofs.«152900_j34102040330885_1_alg».proof.Proof.Gen.Kernel.Points
import proofs.«152900_j34102040330885_1_alg».proof.Proof.Gen.Kernel.Frame
import proofs.«152900_j34102040330885_1_alg».proof.Proof.Gen.KernelIdeal
import proofs.«152900_j34102040330885_1_alg».proof.Proof.Gen.KernelIdeal.Skeleton
import proofs.«152900_j34102040330885_1_alg».proof.Proof.Gen.KernelIdeal.Launch
import proofs.«152900_j34102040330885_1_alg».proof.Proof.Gen.KernelIdeal.Points
import proofs.«152900_j34102040330885_1_alg».proof.Proof.Gen.KernelIdeal.Frame
import proofs.«152900_j34102040330885_1_alg».proof.Proof.Gen.ReferenceIdeal
import proofs.«152900_j34102040330885_1_alg».proof.Proof.Gen.ReferenceIdeal.Run
import proofs.«152900_j34102040330885_1_alg».proof.Proof.Gen.Pre_finite_inputs
import proofs.«152900_j34102040330885_1_alg».proof.Proof.Bridge
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ
/-- So does its idealization. -/
theorem frame_kernel_ideal : Cert.frame_KernelIdeal := fun m ρ _ => Cert.KernelIdeal.Gen.frame m ρ
/-- The reference has no kernel: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Bridge.algebraic⟩

end Cert.Proof

end
